-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x20000 : Shape := ⟨2, ![16, 20000]⟩
abbrev S16x640000 : Shape := ⟨2, ![16, 640000]⟩
abbrev S80000 : Shape := ⟨1, ![80000]⟩
abbrev S132x128 : Shape := ⟨2, ![132, 128]⟩
abbrev S128 : Shape := ⟨1, ![128]⟩
abbrev S132x64 : Shape := ⟨2, ![132, 64]⟩
abbrev S64 : Shape := ⟨1, ![64]⟩
abbrev S_ : Shape := ⟨0, ![]⟩

class Facts : Prop where
  bcast_S_S16x20000 : S_.BroadcastsInDim S16x20000 (![] : Fin 0 → Fin S16x20000.rank)
  reducesTo_S16x20000_S_d0_1 : S16x20000.ReducesTo [0, 1] S_
  h_S_ : 0 < S_.numel
  bcast_S_S16x640000 : S_.BroadcastsInDim S16x640000 (![] : Fin 0 → Fin S16x640000.rank)
  reducesTo_S16x640000_S_d0_1 : S16x640000.ReducesTo [0, 1] S_
  bcast_S_S80000 : S_.BroadcastsInDim S80000 (![] : Fin 0 → Fin S80000.rank)
  reducesTo_S80000_S_d0 : S80000.ReducesTo [0] S_
  bcast_S_S132x128 : S_.BroadcastsInDim S132x128 (![] : Fin 0 → Fin S132x128.rank)
  reducesTo_S132x128_S_d0_1 : S132x128.ReducesTo [0, 1] S_
  bcast_S_S128 : S_.BroadcastsInDim S128 (![] : Fin 0 → Fin S128.rank)
  reducesTo_S128_S_d0 : S128.ReducesTo [0] S_
  bcast_S_S132x64 : S_.BroadcastsInDim S132x64 (![] : Fin 0 → Fin S132x64.rank)
  reducesTo_S132x64_S_d0_1 : S132x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg11 : FVec F S132x128 .f32) (main_arg12 : FVec F S128 .f32) (main_arg13 : FVec F S132x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S132x128 .f32 := Host.absf main_arg11
  let main_cst_20 : FVec F S_ .f32 := constant S_ .f32 0x7F800000#32
  let main_v55 : FVec F S132x128 .f32 := broadcastInDim S132x128 ![] bcast_S_S132x128 main_cst_20
  let main_v56 : IVec S132x128 1 := cmpf .olt main_v54 main_v55
  let main_c_21 : IVec S_ 1 := constantI S_ 1 1#1
  let main_v57 : IVec S_ 1 := (fun x v => Host.reduce IntOp.andi x v reducesTo_S132x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S132x64 .f32 := Host.absf main_arg13
  let main_cst_24 : FVec F S_ .f32 := constant S_ .f32 0x7F800000#32
  let main_v65 : FVec F S132x64 .f32 := broadcastInDim S132x64 ![] bcast_S_S132x64 main_cst_24
  let main_v66 : IVec S132x64 1 := cmpf .olt main_v64 main_v65
  let main_c_25 : IVec S_ 1 := constantI S_ 1 1#1
  let main_v67 : IVec S_ 1 := (fun x v => Host.reduce IntOp.andi x v reducesTo_S132x64_S_d0_1 h_S_) main_v66 main_c_25
  fn_part4 (F := F) main_arg14 main_v63 main_v67

def fn_part2 {F : FTy → Type} [FloatOps F] (main_arg7 : FVec F S132x64 .f32) (main_arg8 : FVec F S132x64 .f32) (main_arg9 : FVec F S64 .f32) (main_arg10 : FVec F S64 .f32) (main_arg11 : FVec F S132x128 .f32) (main_arg12 : FVec F S128 .f32) (main_arg13 : FVec F S132x64 .f32) (main_arg14 : FVec F S64 .f32) (main_v33 : IVec S_ 1) : IVec S_ 1 :=
  let main_v34 : FVec F S132x64 .f32 := Host.absf main_arg7
  let main_cst_12 : FVec F S_ .f32 := constant S_ .f32 0x7F800000#32
  let main_v35 : FVec F S132x64 .f32 := broadcastInDim S132x64 ![] bcast_S_S132x64 main_cst_12
  let main_v36 : IVec S132x64 1 := cmpf .olt main_v34 main_v35
  let main_c_13 : IVec S_ 1 := constantI S_ 1 1#1
  let main_v37 : IVec S_ 1 := (fun x v => Host.reduce IntOp.andi x v reducesTo_S132x64_S_d0_1 h_S_) main_v36 main_c_13
  let main_v38 : IVec S_ 1 := andi main_v33 main_v37
  let main_v39 : FVec F S132x64 .f32 := Host.absf main_arg8
  let main_cst_14 : FVec F S_ .f32 := constant S_ .f32 0x7F800000#32
  let main_v40 : FVec F S132x64 .f32 := broadcastInDim S132x64 ![] bcast_S_S132x64 main_cst_14
  let main_v41 : IVec S132x64 1 := cmpf .olt main_v39 main_v40
  let main_c_15 : IVec S_ 1 := constantI S_ 1 1#1
  let main_v42 : IVec S_ 1 := (fun x v => Host.reduce IntOp.andi x v reducesTo_S132x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S132x128 .f32) (main_arg5 : FVec F S128 .f32) (main_arg6 : FVec F S128 .f32) (main_arg7 : FVec F S132x64 .f32) (main_arg8 : FVec F S132x64 .f32) (main_arg9 : FVec F S64 .f32) (main_arg10 : FVec F S64 .f32) (main_arg11 : FVec F S132x128 .f32) (main_arg12 : FVec F S128 .f32) (main_arg13 : FVec F S132x64 .f32) (main_arg14 : FVec F S64 .f32) (main_v13 : IVec S_ 1) (main_v16 : IVec S132x128 1) : IVec S_ 1 :=
  let main_c_5 : IVec S_ 1 := constantI S_ 1 1#1
  let main_v17 : IVec S_ 1 := (fun x v => Host.reduce IntOp.andi x v reducesTo_S132x128_S_d0_1 h_S_) main_v16 main_c_5
  let main_v18 : IVec S_ 1 := andi main_v13 main_v17
  let main_v19 : FVec F S132x128 .f32 := Host.absf main_arg4
  let main_cst_6 : FVec F S_ .f32 := constant S_ .f32 0x7F800000#32
  let main_v20 : FVec F S132x128 .f32 := broadcastInDim S132x128 ![] bcast_S_S132x128 main_cst_6
  let main_v21 : IVec S132x128 1 := cmpf .olt main_v19 main_v20
  let main_c_7 : IVec S_ 1 := constantI S_ 1 1#1
  let main_v22 : IVec S_ 1 := (fun x v => Host.reduce IntOp.andi x v reducesTo_S132x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16x20000 .f32) (main_arg1 : FVec F S16x640000 .f32) (main_arg2 : FVec F S80000 .f32) (main_arg3 : FVec F S132x128 .f32) (main_arg4 : FVec F S132x128 .f32) (main_arg5 : FVec F S128 .f32) (main_arg6 : FVec F S128 .f32) (main_arg7 : FVec F S132x64 .f32) (main_arg8 : FVec F S132x64 .f32) (main_arg9 : FVec F S64 .f32) (main_arg10 : FVec F S64 .f32) (main_arg11 : FVec F S132x128 .f32) (main_arg12 : FVec F S128 .f32) (main_arg13 : FVec F S132x64 .f32) (main_arg14 : FVec F S64 .f32) (main_arg15 : IVec S80000 32) (main_arg16 : IVec S80000 32) : IVec S_ 1 :=
  let main_v0 : FVec F S16x20000 .f32 := Host.absf main_arg0
  let main_cst : FVec F S_ .f32 := constant S_ .f32 0x7F800000#32
  let main_v1 : FVec F S16x20000 .f32 := broadcastInDim S16x20000 ![] bcast_S_S16x20000 main_cst
  let main_v2 : IVec S16x20000 1 := cmpf .olt main_v0 main_v1
  let main_c : IVec S_ 1 := constantI S_ 1 1#1
  let main_v3 : IVec S_ 1 := (fun x v => Host.reduce IntOp.andi x v reducesTo_S16x20000_S_d0_1 h_S_) main_v2 main_c
  let main_v4 : FVec F S16x640000 .f32 := Host.absf main_arg1
  let main_cst_0 : FVec F S_ .f32 := constant S_ .f32 0x7F800000#32
  let main_v5 : FVec F S16x640000 .f32 := broadcastInDim S16x640000 ![] bcast_S_S16x640000 main_cst_0
  let main_v6 : IVec S16x640000 1 := cmpf .olt main_v4 main_v5
  let main_c_1 : IVec S_ 1 := constantI S_ 1 1#1
  let main_v7 : IVec S_ 1 := (fun x v => Host.reduce IntOp.andi x v reducesTo_S16x640000_S_d0_1 h_S_) main_v6 main_c_1
  let main_v8 : IVec S_ 1 := andi main_v3 main_v7
  let main_v9 : FVec F S80000 .f32 := Host.absf main_arg2
  let main_cst_2 : FVec F S_ .f32 := constant S_ .f32 0x7F800000#32
  let main_v10 : FVec F S80000 .f32 := broadcastInDim S80000 ![] bcast_S_S80000 main_cst_2
  let main_v11 : IVec S80000 1 := cmpf .olt main_v9 main_v10
  let main_c_3 : IVec S_ 1 := constantI S_ 1 1#1
  let main_v12 : IVec S_ 1 := (fun x v => Host.reduce IntOp.andi x v reducesTo_S80000_S_d0 h_S_) main_v11 main_c_3
  let main_v13 : IVec S_ 1 := andi main_v8 main_v12
  let main_v14 : FVec F S132x128 .f32 := Host.absf main_arg3
  let main_cst_4 : FVec F S_ .f32 := constant S_ .f32 0x7F800000#32
  let main_v15 : FVec F S132x128 .f32 := broadcastInDim S132x128 ![] bcast_S_S132x128 main_cst_4
  let main_v16 : IVec S132x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16x20000 : Shape := ⟨2, ![16, 20000]⟩
abbrev S16x640000 : Shape := ⟨2, ![16, 640000]⟩
abbrev S80000 : Shape := ⟨1, ![80000]⟩
abbrev S132x128 : Shape := ⟨2, ![132, 128]⟩
abbrev S128 : Shape := ⟨1, ![128]⟩
abbrev S132x64 : Shape := ⟨2, ![132, 64]⟩
abbrev S64 : Shape := ⟨1, ![64]⟩
abbrev S16x10000x2 : Shape := ⟨3, ![16, 10000, 2]⟩
abbrev S16x10000x64 : Shape := ⟨3, ![16, 10000, 64]⟩
abbrev S16x10000x66 : Shape := ⟨3, ![16, 10000, 66]⟩
abbrev S10000x66x16 : Shape := ⟨3, ![10000, 66, 16]⟩
abbrev S10000x1056 : Shape := ⟨2, ![10000, 1056]⟩
abbrev S80000x1 : Shape := ⟨2, ![80000, 1]⟩
abbrev S_ : Shape := ⟨0, ![]⟩
abbrev S80000x1056 : Shape := ⟨2, ![80000, 1056]⟩
abbrev S1x10000x1056 : Shape := ⟨3, ![1, 10000, 1056]⟩
abbrev S2x10000x1056 : Shape := ⟨3, ![2, 10000, 1056]⟩
abbrev S2x10000x66x16 : Shape := ⟨4, ![2, 10000, 66, 16]⟩
abbrev S16x10000x66x2 : Shape := ⟨4, ![16, 10000, 66, 2]⟩
abbrev S160000x132 : Shape := ⟨2, ![160000, 132]⟩
abbrev S1x128 : Shape := ⟨2, ![1, 128]⟩
abbrev S160000x128 : Shape := ⟨2, ![160000, 128]⟩
abbrev S4000x132 : Shape := ⟨2, ![4000, 132]⟩
abbrev S4000x128 : Shape := ⟨2, ![4000, 128]⟩
abbrev S16x10000x128 : Shape := ⟨3, ![16, 10000, 128]⟩
abbrev S16x32000 : Shape := ⟨2, ![16, 32000]⟩
abbrev S1x64 : Shape := ⟨2, ![1, 64]⟩
abbrev S160000x64 : Shape := ⟨2, ![160000, 64]⟩
abbrev S4000x64 : Shape := ⟨2, ![4000, 64]⟩

abbrev nBuf : Space → Nat
  | .hbm => 94
  | .vmem => 26
  | .smem => 0
  | _ => 0

abbrev bufTy : (tb : Table) → Fin (tcTables nBuf tb) → BufTy
  | .hbm, ⟨0, _⟩ => ⟨S16x20000, .f32⟩
  | .hbm, ⟨1, _⟩ => ⟨S16x640000, .f32⟩
  | .hbm, ⟨2, _⟩ => ⟨S80000, .f32⟩
  | .hbm, ⟨3, _⟩ => ⟨S132x128, .f32⟩
  | .hbm, ⟨4, _⟩ => ⟨S132x128, .f32⟩
  | .hbm, ⟨5, _⟩ => ⟨S128, .f32⟩
  | .hbm, ⟨6, _⟩ => ⟨S128, .f32⟩
  | .hbm, ⟨7, _⟩ => ⟨S132x64, .f32⟩
  | .hbm, ⟨8, _⟩ => ⟨S132x64, .f32⟩
  | .hbm, ⟨9, _⟩ => ⟨S64, .f32⟩
  | .hbm, ⟨10, _⟩ => ⟨S64, .f32⟩
  | .hbm, ⟨11, _⟩ => ⟨S132x128, .f32⟩
  | .hbm, ⟨12, _⟩ => ⟨S128, .f32⟩
  | .hbm, ⟨13, _⟩ => ⟨S132x64, .f32⟩
  | .hbm, ⟨14, _⟩ => ⟨S64, .f32⟩
  | .hbm, ⟨15, _⟩ => ⟨S80000, .i32⟩
  | .hbm, ⟨16, _⟩ => ⟨S80000, .i32⟩
  | .hbm, ⟨17, _⟩ => ⟨S132x128, .f32⟩
  | .hbm, ⟨18, _⟩ => ⟨S132x128, .f32⟩
  | .hbm, ⟨19, _⟩ => ⟨S132x128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S132x64, .f32⟩
  | .hbm, ⟨24, _⟩ => ⟨S132x64, .f32⟩
  | .hbm, ⟨25, _⟩ => ⟨S132x64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S16x10000x2, .f32⟩
  | .hbm, ⟨30, _⟩ => ⟨S16x10000x64, .f32⟩
  | .hbm, ⟨31, _⟩ => ⟨S16x10000x66, .f32⟩
  | .hbm, ⟨32, _⟩ => ⟨S10000x66x16, .f32⟩
  | .hbm, ⟨33, _⟩ => ⟨S10000x1056, .f32⟩
  | .hbm, ⟨34, _⟩ => ⟨S80000x1, .f32⟩
  | .hbm, ⟨35, _⟩ => ⟨S_, .i32⟩
  | .hbm, ⟨36, _⟩ => ⟨S80000, .i32⟩
  | .hbm, ⟨37, _⟩ => ⟨S80000, .i1⟩
  | .hbm, ⟨38, _⟩ => ⟨S_, .i32⟩
  | .hbm, ⟨39, _⟩ => ⟨S80000, .i32⟩
  | .hbm, ⟨40, _⟩ => ⟨S80000, .i32⟩
  | .hbm, ⟨41, _⟩ => ⟨S80000, .i32⟩
  | .hbm, ⟨42, _⟩ => ⟨S80000x1, .i32⟩
  | .hbm, ⟨43, _⟩ => ⟨S80000x1056, .f32⟩
  | .hbm, ⟨44, _⟩ => ⟨S80000x1056, .f32⟩
  | .hbm, ⟨45, _⟩ => ⟨S80000x1056, .f32⟩
  | .hbm, ⟨46, _⟩ => ⟨S_, .f32⟩
  | .hbm, ⟨47, _⟩ => ⟨S10000x1056, .f32⟩
  | .hbm, ⟨48, _⟩ => ⟨S80000x1, .i32⟩
  | .hbm, ⟨49, _⟩ => ⟨S10000x1056, .f32⟩
  | .hbm, ⟨50, _⟩ => ⟨S1x10000x1056, .f32⟩
  | .hbm, ⟨51, _⟩ => ⟨S1x10000x1056, .f32⟩
  | .hbm, ⟨52, _⟩ => ⟨S2x10000x1056, .f32⟩
  | .hbm, ⟨53, _⟩ => ⟨S2x10000x66x16, .f32⟩
  | .hbm, ⟨54, _⟩ => ⟨S16x10000x66x2, .f32⟩
  | .hbm, ⟨55, _⟩ => ⟨S160000x132, .f32⟩
  | .hbm, ⟨56, _⟩ => ⟨S1x128, .f32⟩
  | .hbm, ⟨57, _⟩ => ⟨S160000x128, .f32⟩
  | .hbm, ⟨58, _⟩ => ⟨S16x10000x128, .f32⟩
  | .hbm, ⟨59, _⟩ => ⟨S16x10000x64, .f32⟩
  | .hbm, ⟨60, _⟩ => ⟨S16x640000, .f32⟩
  | .hbm, ⟨61, _⟩ => ⟨S16x10000x64, .f32⟩
  | .hbm, ⟨62, _⟩ => ⟨S16x640000, .f32⟩
  | .hbm, ⟨63, _⟩ => ⟨S16x640000, .f32⟩
  | .hbm, ⟨64, _⟩ => ⟨S16x10000x64, .f32⟩
  | .hbm, ⟨65, _⟩ => ⟨S16x10000x66, .f32⟩
  | .hbm, ⟨66, _⟩ => ⟨S10000x66x16, .f32⟩
  | .hbm, ⟨67, _⟩ => ⟨S10000x1056, .f32⟩
  | .hbm, ⟨68, _⟩ => ⟨S80000x1, .f32⟩
  | .hbm, ⟨69, _⟩ => ⟨S_, .i32⟩
  | .hbm, ⟨70, _⟩ => ⟨S80000, .i32⟩
  | .hbm, ⟨71, _⟩ => ⟨S80000, .i1⟩
  | .hbm, ⟨72, _⟩ => ⟨S_, .i32⟩
  | .hbm, ⟨73, _⟩ => ⟨S80000, .i32⟩
  | .hbm, ⟨74, _⟩ => ⟨S80000, .i32⟩
  | .hbm, ⟨75, _⟩ => ⟨S80000, .i32⟩
  | .hbm, ⟨76, _⟩ => ⟨S80000x1, .i32⟩
  | .hbm, ⟨77, _⟩ => ⟨S80000x1056, .f32⟩
  | .hbm, ⟨78, _⟩ => ⟨S80000x1056, .f32⟩
  | .hbm, ⟨79, _⟩ => ⟨S80000x1056, .f32⟩
  | .hbm, ⟨80, _⟩ => ⟨S_, .f32⟩
  | .hbm, ⟨81, _⟩ => ⟨S10000x1056, .f32⟩
  | .hbm, ⟨82, _⟩ => ⟨S80000x1, .i32⟩
  | .hbm, ⟨83, _⟩ => ⟨S10000x1056, .f32⟩
  | .hbm, ⟨84, _⟩ => ⟨S1x10000x1056, .f32⟩
  | .hbm, ⟨85, _⟩ => ⟨S1x10000x1056, .f32⟩
  | .hbm, ⟨86, _⟩ => ⟨S2x10000x1056, .f32⟩
  | .hbm, ⟨87, _⟩ => ⟨S2x10000x66x16, .f32⟩
  | .hbm, ⟨88, _⟩ => ⟨S16x10000x66x2, .f32⟩
  | .hbm, ⟨89, _⟩ => ⟨S160000x132, .f32⟩
  | .hbm, ⟨90, _⟩ => ⟨S1x64, .f32⟩
  | .hbm, ⟨91, _⟩ => ⟨S160000x64, .f32⟩
  | .hbm, ⟨92, _⟩ => ⟨S16x640000, .f32⟩
  | .hbm, ⟨93, _⟩ => ⟨S16x640000, .f32⟩
  | .local _ .vmem, ⟨0, _⟩ => ⟨S4000x132, .f32⟩
  | .local _ .vmem, ⟨1, _⟩ => ⟨S4000x132, .f32⟩
  | .local _ .vmem, ⟨2, _⟩ => ⟨S132x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S16x32000, .f32⟩
  | .local _ .vmem, ⟨7, _⟩ => ⟨S16x32000, .f32⟩
  | .local _ .vmem, ⟨8, _⟩ => ⟨S16x32000, .f32⟩
  | .local _ .vmem, ⟨9, _⟩ => ⟨S16x32000, .f32⟩
  | .local _ .vmem, ⟨10, _⟩ => ⟨S16x32000, .f32⟩
  | .local _ .vmem, ⟨11, _⟩ => ⟨S16x32000, .f32⟩
  | .local _ .vmem, ⟨12, _⟩ => ⟨S4000x132, .f32⟩
  | .local _ .vmem, ⟨13, _⟩ => ⟨S4000x132, .f32⟩
  | .local _ .vmem, ⟨14, _⟩ => ⟨S132x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | .local _ .vmem, ⟨18, _⟩ => ⟨S16x32000, .f32⟩
  | .local _ .vmem, ⟨19, _⟩ => ⟨S16x32000, .f32⟩
  | .local _ .vmem, ⟨20, _⟩ => ⟨S16x32000, .f32⟩
  | .local _ .vmem, ⟨21, _⟩ => ⟨S16x32000, .f32⟩
  | .local _ .vmem, ⟨22, _⟩ => ⟨S16x32000, .f32⟩
  | .local _ .vmem, ⟨23, _⟩ => ⟨S16x32000, .f32⟩
  | .local _ .vmem, ⟨24, _⟩ => ⟨S16x32000, .f32⟩
  | .local _ .vmem, ⟨25, _⟩ => ⟨S16x32000, .f32⟩
  | _, _ => ⟨S16x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_1 : Ref sig .tc := ⟨.hbm, 69, rfl⟩
abbrev main_v49 : Ref sig .tc := ⟨.hbm, 70, rfl⟩
abbrev main_v50 : Ref sig .tc := ⟨.hbm, 71, rfl⟩
abbrev main_c_2 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_3 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x132 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S132x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x32000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x32000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x32000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x132 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S132x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S16x32000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16x32000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16x32000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S16x32000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S16x20000_S16x10000x2 : S16x20000.ShapeCasts S16x10000x2
  shapeCasts_S16x640000_S16x10000x64 : S16x640000.ShapeCasts S16x10000x64
  concatenates_S16x10000x2_S16x10000x64_S16x10000x66_d2 : Shape.Concatenates [S16x10000x2, S16x10000x64] S16x10000x66 2
  transposes_S16x10000x66_S10000x66x16_1_2_0 : S16x10000x66.Transposes [1, 2, 0] S10000x66x16
  shapeCasts_S10000x66x16_S10000x1056 : S10000x66x16.ShapeCasts S10000x1056
  bcast_S80000_S80000x1_0 : S80000.BroadcastsInDim S80000x1 (![0] : Fin 1 → Fin S80000x1.rank)
  bcast_S_S80000 : S_.BroadcastsInDim S80000 (![] : Fin 0 → Fin S80000.rank)
  bcast_S80000x1_S80000x1056_0_1 : S80000x1.BroadcastsInDim S80000x1056 (![0, 1] : Fin 2 → Fin S80000x1056.rank)
  bcast_S_S10000x1056 : S_.BroadcastsInDim S10000x1056 (![] : Fin 0 → Fin S10000x1056.rank)
  bcast_S10000x1056_S1x10000x1056_1_2 : S10000x1056.BroadcastsInDim S1x10000x1056 (![1, 2] : Fin 2 → Fin S1x10000x1056.rank)
  concatenates_S1x10000x1056_S1x10000x1056_S2x10000x1056_d0 : Shape.Concatenates [S1x10000x1056, S1x10000x1056] S2x10000x1056 0
  shapeCasts_S2x10000x1056_S2x10000x66x16 : S2x10000x1056.ShapeCasts S2x10000x66x16
  transposes_S2x10000x66x16_S16x10000x66x2_3_1_2_0 : S2x10000x66x16.Transposes [3, 1, 2, 0] S16x10000x66x2
  shapeCasts_S16x10000x66x2_S160000x132 : S16x10000x66x2.ShapeCasts S160000x132
  shapeCasts_S128_S1x128 : S128.ShapeCasts S1x128
  inb_S4000x132_S4000x132_0_0 : ∀ a, (![0, 0] : Fin 2 → Nat) a + S4000x132.size a ≤ S4000x132.size a
  h_S4000x132 : 0 < S4000x132.numel
  shapeCasts_S4000x132_S4000x132 : S4000x132.ShapeCasts S4000x132
  bitsLt_bf16_f32 : FTy.bits .bf16 < FTy.bits .f32
  inb_S132x128_S132x128_0_0 : ∀ a, (![0, 0] : Fin 2 → Nat) a + S132x128.size a ≤ S132x128.size a
  h_S132x128 : 0 < S132x128.numel
  shapeCasts_S132x128_S132x128 : S132x128.ShapeCasts S132x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S160000x128_S16x10000x128 : S160000x128.ShapeCasts S16x10000x128
  slices_S16x10000x128_S16x10000x64_0_0_0 : S16x10000x128.Slices ![0, 0, 0] S16x10000x64
  shapeCasts_S16x10000x64_S16x640000 : S16x10000x64.ShapeCasts S16x640000
  slices_S16x10000x128_S16x10000x64_0_0_64 : S16x10000x128.Slices ![0, 0, 64] S16x10000x64
  inb_S16x32000_S16x32000_0_0 : ∀ a, (![0, 0] : Fin 2 → Nat) a + S16x32000.size a ≤ S16x32000.size a
  h_S16x32000 : 0 < S16x32000.numel
  shapeCasts_S16x32000_S16x32000 : S16x32000.ShapeCasts S16x32000
  shapeCasts_S64_S1x64 : S64.ShapeCasts S1x64
  inb_S132x64_S132x64_0_0 : ∀ a, (![0, 0] : Fin 2 → Nat) a + S132x64.size a ≤ S132x64.size a
  h_S132x64 : 0 < S132x64.numel
  shapeCasts_S132x64_S132x64 : S132x64.ShapeCasts S132x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S160000x64_S16x640000 : S160000x64.ShapeCasts S16x640000
  gather_S10000x1056_S80000x1_S80000x1056_1_0_n_n_0_1_11056_wf : GatherDims.WF S10000x1056 S80000x1 S80000x1056 [1] [0] [] [0] [] 1 ![1, 1056]
  scatter_S10000x1056_S80000x1_S80000x1056_1_0_0_1_wf : ScatterDims.WF S10000x1056 S80000x1 S80000x1056 [1] [0] [0] 1
  dot_S4000x132_S132x128_S4000x128_1_0_0_1_n_n_wf : DotDims.WF S4000x132 S132x128 S4000x128 [1] [0] [0] [1] [] []
  dot_S4000x132_S132x64_S4000x64_1_0_0_1_n_n_wf : DotDims.WF S4000x132 S132x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x132.size a ≤ S160000x132.size a
  hwx0_0 : ∀ i : grid0.Coords, EltTy.bits .f32 = 32 ∨ (Rect.block (s := S160000x132) S4000x132.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S132x128.size a ≤ S132x128.size a
  hwx0_1 : ∀ i : grid0.Coords, EltTy.bits .f32 = 32 ∨ (Rect.block (s := S132x128) S132x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S160000x128.size a
  hwx0_3 : ∀ i : grid0.Coords, EltTy.bits .f32 = 32 ∨ (Rect.block (s := S160000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x32000.size a ≤ S16x640000.size a
  hwx1_0 : ∀ i : grid1.Coords, EltTy.bits .f32 = 32 ∨ (Rect.block (s := S16x640000) S16x32000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x32000.size a ≤ S16x640000.size a
  hwx1_1 : ∀ i : grid1.Coords, EltTy.bits .f32 = 32 ∨ (Rect.block (s := S16x640000) S16x32000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x32000.size a ≤ S16x640000.size a
  hwx1_2 : ∀ i : grid1.Coords, EltTy.bits .f32 = 32 ∨ (Rect.block (s := S16x640000) S16x32000.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x132.size a ≤ S160000x132.size a
  hwx2_0 : ∀ i : grid2.Coords, EltTy.bits .f32 = 32 ∨ (Rect.block (s := S160000x132) S4000x132.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S132x64.size a ≤ S132x64.size a
  hwx2_1 : ∀ i : grid2.Coords, EltTy.bits .f32 = 32 ∨ (Rect.block (s := S132x64) S132x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S160000x64.size a
  hwx2_3 : ∀ i : grid2.Coords, EltTy.bits .f32 = 32 ∨ (Rect.block (s := S160000x64) S4000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16x32000.size a ≤ S16x640000.size a
  hwx3_0 : ∀ i : grid3.Coords, EltTy.bits .f32 = 32 ∨ (Rect.block (s := S16x640000) S16x32000.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16x32000.size a ≤ S16x640000.size a
  hwx3_1 : ∀ i : grid3.Coords, EltTy.bits .f32 = 32 ∨ (Rect.block (s := S16x640000) S16x32000.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16x32000.size a ≤ S16x640000.size a
  hwx3_2 : ∀ i : grid3.Coords, EltTy.bits .f32 = 32 ∨ (Rect.block (s := S16x640000) S16x32000.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S16x32000.size a ≤ S16x640000.size a
  hwx3_3 : ∀ i : grid3.Coords, EltTy.bits .f32 = 32 ∨ (Rect.block (s := S16x640000) S16x32000.size (cc3_transform_3 i) (hinb3_3 i)).WholeWords (EltTy.packing .f32)

variable [Facts₀]

def gather_S10000x1056_S80000x1_S80000x1056_1_0_n_n_0_1_11056 : GatherDims S10000x1056 S80000x1 S80000x1056 where
  offsetDims := [1]
  collapsedSliceDims := [0]
  operandBatchingDims := []
  startIndicesBatchingDims := []
  startIndexMap := [0]
  indexVectorDim := 1
  sliceSizes := ![1, 1056]
  wf := gather_S10000x1056_S80000x1_S80000x1056_1_0_n_n_0_1_11056_wf
def scatter_S10000x1056_S80000x1_S80000x1056_1_0_0_1 : ScatterDims S10000x1056 S80000x1 S80000x1056 where
  updateWindowDims := [1]
  insertedWindowDims := [0]
  scatterDimsToOperandDims := [0]
  indexVectorDim := 1
  wf := scatter_S10000x1056_S80000x1_S80000x1056_1_0_0_1_wf
def dot_S4000x132_S132x128_S4000x128_1_0_0_1_n_n : DotDims S4000x132 S132x128 S4000x128 where
  lhsContracting := [1]
  rhsContracting := [0]
  lhsNonContracting := [0]
  rhsNonContracting := [1]
  lhsBatch := []
  rhsBatch := []
  wf := dot_S4000x132_S132x128_S4000x128_1_0_0_1_n_n_wf
def dot_S4000x132_S132x64_S4000x64_1_0_0_1_n_n : DotDims S4000x132 S132x64 S4000x64 where
  lhsContracting := [1]
  rhsContracting := [0]
  lhsNonContracting := [0]
  rhsNonContracting := [1]
  lhsBatch := []
  rhsBatch := []
  wf := dot_S4000x132_S132x64_S4000x64_1_0_0_1_n_n_wf

abbrev win0_0 : Pipeline.Window sig grid0 :=
  Pipeline.Window.ofSpec (Memref.whole main_v35) S4000x132.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S132x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S16x32000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16x32000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S16x32000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S4000x132.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S132x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S16x32000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S16x32000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S16x32000.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v70) S16x32000.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16x20000 : Shape := ⟨2, ![16, 20000]⟩
abbrev S16x640000 : Shape := ⟨2, ![16, 640000]⟩
abbrev S80000 : Shape := ⟨1, ![80000]⟩
abbrev S132x128 : Shape := ⟨2, ![132, 128]⟩
abbrev S128 : Shape := ⟨1, ![128]⟩
abbrev S132x64 : Shape := ⟨2, ![132, 64]⟩
abbrev S64 : Shape := ⟨1, ![64]⟩
abbrev S16x10000x2 : Shape := ⟨3, ![16, 10000, 2]⟩
abbrev S16x10000x64 : Shape := ⟨3, ![16, 10000, 64]⟩
abbrev S16x10000x66 : Shape := ⟨3, ![16, 10000, 66]⟩
abbrev S10000x66x16 : Shape := ⟨3, ![10000, 66, 16]⟩
abbrev S10000x1056 : Shape := ⟨2, ![10000, 1056]⟩
abbrev S80000x1 : Shape := ⟨2, ![80000, 1]⟩
abbrev S_ : Shape := ⟨0, ![]⟩
abbrev S80000x1056 : Shape := ⟨2, ![80000, 1056]⟩
abbrev S1x10000x1056 : Shape := ⟨3, ![1, 10000, 1056]⟩
abbrev S2x10000x1056 : Shape := ⟨3, ![2, 10000, 1056]⟩
abbrev S2x10000x66x16 : Shape := ⟨4, ![2, 10000, 66, 16]⟩
abbrev S16x10000x66x2 : Shape := ⟨4, ![16, 10000, 66, 2]⟩
abbrev S160000x132 : Shape := ⟨2, ![160000, 132]⟩
abbrev S160000x128 : Shape := ⟨2, ![160000, 128]⟩
abbrev S1x128 : Shape := ⟨2, ![1, 128]⟩
abbrev S16x10000x128 : Shape := ⟨3, ![16, 10000, 128]⟩
abbrev S160000x64 : Shape := ⟨2, ![160000, 64]⟩
abbrev S1x64 : Shape := ⟨2, ![1, 64]⟩

abbrev nBuf : Space → Nat
  | .hbm => 113
  | .vmem => 0
  | .smem => 0
  | _ => 0

abbrev bufTy : (tb : Table) → Fin (tcTables nBuf tb) → BufTy
  | .hbm, ⟨0, _⟩ => ⟨S16x20000, .f32⟩
  | .hbm, ⟨1, _⟩ => ⟨S16x640000, .f32⟩
  | .hbm, ⟨2, _⟩ => ⟨S80000, .f32⟩
  | .hbm, ⟨3, _⟩ => ⟨S132x128, .f32⟩
  | .hbm, ⟨4, _⟩ => ⟨S132x128, .f32⟩
  | .hbm, ⟨5, _⟩ => ⟨S128, .f32⟩
  | .hbm, ⟨6, _⟩ => ⟨S128, .f32⟩
  | .hbm, ⟨7, _⟩ => ⟨S132x64, .f32⟩
  | .hbm, ⟨8, _⟩ => ⟨S132x64, .f32⟩
  | .hbm, ⟨9, _⟩ => ⟨S64, .f32⟩
  | .hbm, ⟨10, _⟩ => ⟨S64, .f32⟩
  | .hbm, ⟨11, _⟩ => ⟨S132x128, .f32⟩
  | .hbm, ⟨12, _⟩ => ⟨S128, .f32⟩
  | .hbm, ⟨13, _⟩ => ⟨S132x64, .f32⟩
  | .hbm, ⟨14, _⟩ => ⟨S64, .f32⟩
  | .hbm, ⟨15, _⟩ => ⟨S80000, .i32⟩
  | .hbm, ⟨16, _⟩ => ⟨S80000, .i32⟩
  | .hbm, ⟨17, _⟩ => ⟨S132x128, .f32⟩
  | .hbm, ⟨18, _⟩ => ⟨S132x128, .f32⟩
  | .hbm, ⟨19, _⟩ => ⟨S132x128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S132x64, .f32⟩
  | .hbm, ⟨24, _⟩ => ⟨S132x64, .f32⟩
  | .hbm, ⟨25, _⟩ => ⟨S132x64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S16x10000x2, .f32⟩
  | .hbm, ⟨30, _⟩ => ⟨S16x10000x64, .f32⟩
  | .hbm, ⟨31, _⟩ => ⟨S16x10000x66, .f32⟩
  | .hbm, ⟨32, _⟩ => ⟨S10000x66x16, .f32⟩
  | .hbm, ⟨33, _⟩ => ⟨S10000x1056, .f32⟩
  | .hbm, ⟨34, _⟩ => ⟨S80000x1, .f32⟩
  | .hbm, ⟨35, _⟩ => ⟨S_, .i32⟩
  | .hbm, ⟨36, _⟩ => ⟨S80000, .i32⟩
  | .hbm, ⟨37, _⟩ => ⟨S80000, .i1⟩
  | .hbm, ⟨38, _⟩ => ⟨S_, .i32⟩
  | .hbm, ⟨39, _⟩ => ⟨S80000, .i32⟩
  | .hbm, ⟨40, _⟩ => ⟨S80000, .i32⟩
  | .hbm, ⟨41, _⟩ => ⟨S80000, .i32⟩
  | .hbm, ⟨42, _⟩ => ⟨S80000x1, .i32⟩
  | .hbm, ⟨43, _⟩ => ⟨S80000x1056, .f32⟩
  | .hbm, ⟨44, _⟩ => ⟨S80000x1056, .f32⟩
  | .hbm, ⟨45, _⟩ => ⟨S80000x1056, .f32⟩
  | .hbm, ⟨46, _⟩ => ⟨S_, .f32⟩
  | .hbm, ⟨47, _⟩ => ⟨S10000x1056, .f32⟩
  | .hbm, ⟨48, _⟩ => ⟨S80000x1, .i32⟩
  | .hbm, ⟨49, _⟩ => ⟨S10000x1056, .f32⟩
  | .hbm, ⟨50, _⟩ => ⟨S1x10000x1056, .f32⟩
  | .hbm, ⟨51, _⟩ => ⟨S1x10000x1056, .f32⟩
  | .hbm, ⟨52, _⟩ => ⟨S2x10000x1056, .f32⟩
  | .hbm, ⟨53, _⟩ => ⟨S2x10000x66x16, .f32⟩
  | .hbm, ⟨54, _⟩ => ⟨S16x10000x66x2, .f32⟩
  | .hbm, ⟨55, _⟩ => ⟨S160000x132, .f32⟩
  | .hbm, ⟨56, _⟩ => ⟨S160000x128, .f32⟩
  | .hbm, ⟨57, _⟩ => ⟨S1x128, .f32⟩
  | .hbm, ⟨58, _⟩ => ⟨S160000x128, .f32⟩
  | .hbm, ⟨59, _⟩ => ⟨S160000x128, .f32⟩
  | .hbm, ⟨60, _⟩ => ⟨S16x10000x128, .f32⟩
  | .hbm, ⟨61, _⟩ => ⟨S16x10000x128, .f32⟩
  | .hbm, ⟨62, _⟩ => ⟨S16x10000x128, .f32⟩
  | .hbm, ⟨63, _⟩ => ⟨S_, .f32⟩
  | .hbm, ⟨64, _⟩ => ⟨S16x10000x128, .f32⟩
  | .hbm, ⟨65, _⟩ => ⟨S16x10000x128, .f32⟩
  | .hbm, ⟨66, _⟩ => ⟨S_, .f32⟩
  | .hbm, ⟨67, _⟩ => ⟨S16x10000x128, .f32⟩
  | .hbm, ⟨68, _⟩ => ⟨S16x10000x128, .f32⟩
  | .hbm, ⟨69, _⟩ => ⟨S16x10000x64, .f32⟩
  | .hbm, ⟨70, _⟩ => ⟨S16x10000x64, .f32⟩
  | .hbm, ⟨71, _⟩ => ⟨S16x640000, .f32⟩
  | .hbm, ⟨72, _⟩ => ⟨S16x640000, .f32⟩
  | .hbm, ⟨73, _⟩ => ⟨S16x640000, .f32⟩
  | .hbm, ⟨74, _⟩ => ⟨S16x10000x64, .f32⟩
  | .hbm, ⟨75, _⟩ => ⟨S16x10000x66, .f32⟩
  | .hbm, ⟨76, _⟩ => ⟨S10000x66x16, .f32⟩
  | .hbm, ⟨77, _⟩ => ⟨S10000x1056, .f32⟩
  | .hbm, ⟨78, _⟩ => ⟨S80000x1, .f32⟩
  | .hbm, ⟨79, _⟩ => ⟨S_, .i32⟩
  | .hbm, ⟨80, _⟩ => ⟨S80000, .i32⟩
  | .hbm, ⟨81, _⟩ => ⟨S80000, .i1⟩
  | .hbm, ⟨82, _⟩ => ⟨S_, .i32⟩
  | .hbm, ⟨83, _⟩ => ⟨S80000, .i32⟩
  | .hbm, ⟨84, _⟩ => ⟨S80000, .i32⟩
  | .hbm, ⟨85, _⟩ => ⟨S80000, .i32⟩
  | .hbm, ⟨86, _⟩ => ⟨S80000x1, .i32⟩
  | .hbm, ⟨87, _⟩ => ⟨S80000x1056, .f32⟩
  | .hbm, ⟨88, _⟩ => ⟨S80000x1056, .f32⟩
  | .hbm, ⟨89, _⟩ => ⟨S80000x1056, .f32⟩
  | .hbm, ⟨90, _⟩ => ⟨S_, .f32⟩
  | .hbm, ⟨91, _⟩ => ⟨S10000x1056, .f32⟩
  | .hbm, ⟨92, _⟩ => ⟨S80000x1, .i32⟩
  | .hbm, ⟨93, _⟩ => ⟨S10000x1056, .f32⟩
  | .hbm, ⟨94, _⟩ => ⟨S1x10000x1056, .f32⟩
  | .hbm, ⟨95, _⟩ => ⟨S1x10000x1056, .f32⟩
  | .hbm, ⟨96, _⟩ => ⟨S2x10000x1056, .f32⟩
  | .hbm, ⟨97, _⟩ => ⟨S2x10000x66x16, .f32⟩
  | .hbm, ⟨98, _⟩ => ⟨S16x10000x66x2, .f32⟩
  | .hbm, ⟨99, _⟩ => ⟨S160000x132, .f32⟩
  | .hbm, ⟨100, _⟩ => ⟨S160000x64, .f32⟩
  | .hbm, ⟨101, _⟩ => ⟨S1x64, .f32⟩
  | .hbm, ⟨102, _⟩ => ⟨S160000x64, .f32⟩
  | .hbm, ⟨103, _⟩ => ⟨S160000x64, .f32⟩
  | .hbm, ⟨104, _⟩ => ⟨S16x10000x64, .f32⟩
  | .hbm, ⟨105, _⟩ => ⟨S16x640000, .f32⟩
  | .hbm, ⟨106, _⟩ => ⟨S16x640000, .f32⟩
  | .hbm, ⟨107, _⟩ => ⟨S16x640000, .f32⟩
  | .hbm, ⟨108, _⟩ => ⟨S_, .f32⟩
  | .hbm, ⟨109, _⟩ => ⟨S16x640000, .f32⟩
  | .hbm, ⟨110, _⟩ => ⟨S16x640000, .f32⟩
  | .hbm, ⟨111, _⟩ => ⟨S16x640000, .f32⟩
  | .hbm, ⟨112, _⟩ => ⟨S16x640000, .f32⟩
  | _, _ => ⟨S16x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_1 : Ref sig .tc := ⟨.hbm, 63, rfl⟩
abbrev main_v43 : Ref sig .tc := ⟨.hbm, 64, rfl⟩
abbrev main_v44 : Ref sig .tc := ⟨.hbm, 65, rfl⟩
abbrev main_cst_2 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_3 : Ref sig .tc := ⟨.hbm, 79, rfl⟩
abbrev main_v57 : Ref sig .tc := ⟨.hbm, 80, rfl⟩
abbrev main_v58 : Ref sig .tc := ⟨.hbm, 81, rfl⟩
abbrev main_c_4 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_5 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_6 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]

class Facts₀ : Prop where
  shapeCasts_S16x20000_S16x10000x2 : S16x20000.ShapeCasts S16x10000x2
  shapeCasts_S16x640000_S16x10000x64 : S16x640000.ShapeCasts S16x10000x64
  concatenates_S16x10000x2_S16x10000x64_S16x10000x66_d2 : Shape.Concatenates [S16x10000x2, S16x10000x64] S16x10000x66 2
  transposes_S16x10000x66_S10000x66x16_1_2_0 : S16x10000x66.Transposes [1, 2, 0] S10000x66x16
  shapeCasts_S10000x66x16_S10000x1056 : S10000x66x16.ShapeCasts S10000x1056
  bcast_S80000_S80000x1_0 : S80000.BroadcastsInDim S80000x1 (![0] : Fin 1 → Fin S80000x1.rank)
  bcast_S_S80000 : S_.BroadcastsInDim S80000 (![] : Fin 0 → Fin S80000.rank)
  bcast_S80000x1_S80000x1056_0_1 : S80000x1.BroadcastsInDim S80000x1056 (![0, 1] : Fin 2 → Fin S80000x1056.rank)
  bcast_S_S10000x1056 : S_.BroadcastsInDim S10000x1056 (![] : Fin 0 → Fin S10000x1056.rank)
  bcast_S10000x1056_S1x10000x1056_1_2 : S10000x1056.BroadcastsInDim S1x10000x1056 (![1, 2] : Fin 2 → Fin S1x10000x1056.rank)
  concatenates_S1x10000x1056_S1x10000x1056_S2x10000x1056_d0 : Shape.Concatenates [S1x10000x1056, S1x10000x1056] S2x10000x1056 0
  shapeCasts_S2x10000x1056_S2x10000x66x16 : S2x10000x1056.ShapeCasts S2x10000x66x16
  transposes_S2x10000x66x16_S16x10000x66x2_3_1_2_0 : S2x10000x66x16.Transposes [3, 1, 2, 0] S16x10000x66x2
  shapeCasts_S16x10000x66x2_S160000x132 : S16x10000x66x2.ShapeCasts S160000x132
  bcast_S128_S1x128_1 : S128.BroadcastsInDim S1x128 (![1] : Fin 1 → Fin S1x128.rank)
  bcast_S1x128_S160000x128_0_1 : S1x128.BroadcastsInDim S160000x128 (![0, 1] : Fin 2 → Fin S160000x128.rank)
  shapeCasts_S160000x128_S16x10000x128 : S160000x128.ShapeCasts S16x10000x128
  bcast_S_S16x10000x128 : S_.BroadcastsInDim S16x10000x128 (![] : Fin 0 → Fin S16x10000x128.rank)
  slices_S16x10000x128_S16x10000x64_0_0_0 : S16x10000x128.Slices ![0, 0, 0] S16x10000x64
  slices_S16x10000x128_S16x10000x64_0_0_64 : S16x10000x128.Slices ![0, 0, 64] S16x10000x64
  shapeCasts_S16x10000x64_S16x640000 : S16x10000x64.ShapeCasts S16x640000
  bcast_S64_S1x64_1 : S64.BroadcastsInDim S1x64 (![1] : Fin 1 → Fin S1x64.rank)
  bcast_S1x64_S160000x64_0_1 : S1x64.BroadcastsInDim S160000x64 (![0, 1] : Fin 2 → Fin S160000x64.rank)
  shapeCasts_S160000x64_S16x10000x64 : S160000x64.ShapeCasts S16x10000x64
  bcast_S_S16x640000 : S_.BroadcastsInDim S16x640000 (![] : Fin 0 → Fin S16x640000.rank)
  gather_S10000x1056_S80000x1_S80000x1056_1_0_n_n_0_1_11056_wf : GatherDims.WF S10000x1056 S80000x1 S80000x1056 [1] [0] [] [0] [] 1 ![1, 1056]
  scatter_S10000x1056_S80000x1_S80000x1056_1_0_0_1_wf : ScatterDims.WF S10000x1056 S80000x1 S80000x1056 [1] [0] [0] 1
  dot_S160000x132_S132x128_S160000x128_1_0_0_1_n_n_wf : DotDims.WF S160000x132 S132x128 S160000x128 [1] [0] [0] [1] [] []
  dot_S160000x132_S132x64_S160000x64_1_0_0_1_n_n_wf : DotDims.WF S160000x132 S132x64 S160000x64 [1] [0] [0] [1] [] []

variable [Facts₀]

def gather_S10000x1056_S80000x1_S80000x1056_1_0_n_n_0_1_11056 : GatherDims S10000x1056 S80000x1 S80000x1056 where
  offsetDims := [1]
  collapsedSliceDims := [0]
  operandBatchingDims := []
  startIndicesBatchingDims := []
  startIndexMap := [0]
  indexVectorDim := 1
  sliceSizes := ![1, 1056]
  wf := gather_S10000x1056_S80000x1_S80000x1056_1_0_n_n_0_1_11056_wf
def scatter_S10000x1056_S80000x1_S80000x1056_1_0_0_1 : ScatterDims S10000x1056 S80000x1 S80000x1056 where
  updateWindowDims := [1]
  insertedWindowDims := [0]
  scatterDimsToOperandDims := [0]
  indexVectorDim := 1
  wf := scatter_S10000x1056_S80000x1_S80000x1056_1_0_0_1_wf
def dot_S160000x132_S132x128_S160000x128_1_0_0_1_n_n : DotDims S160000x132 S132x128 S160000x128 where
  lhsContracting := [1]
  rhsContracting := [0]
  lhsNonContracting := [0]
  rhsNonContracting := [1]
  lhsBatch := []
  rhsBatch := []
  wf := dot_S160000x132_S132x128_S160000x128_1_0_0_1_n_n_wf
def dot_S160000x132_S132x64_S160000x64_1_0_0_1_n_n : DotDims S160000x132 S132x64 S160000x64 where
  lhsContracting := [1]
  rhsContracting := [0]
  lhsNonContracting := [0]
  rhsNonContracting := [1]
  lhsBatch := []
  rhsBatch := []
  wf := dot_S160000x132_S132x64_S160000x64_1_0_0_1_n_n_wf

class Facts : Prop extends Facts₀ where

variable [Facts]
-- ==== Proof.Chain.lean ====
/-
  The reference program's host operations, grouped into the stages of one step of the recurrent cell, as functions of their
  operands over any float family: a sampled weight (mean plus exp of the log-deviation times the noise), the design matrix
  of a graph convolution (the node features next to their one-hop diffusion along the weighted edges, both laid out as
  rows of 132 numbers per batch entry and node), the gate layer with its two halves, the candidate layer, the blend, and
  the cell as their composition.
-/
import proofs.«159687_j90202903150932_1_alg».proof.Proof.Gen.ReferenceIdeal

noncomputable section

namespace Cert.ReferenceIdeal.Chain

open Cert.ReferenceIdeal Cert.ReferenceIdeal.Gen Idealize.ShloMosaic Idealize.ShloMosaic.TcCoe

variable {F : FTy → Type} [FloatOps F]

/-- A sampled weight: mean + exp(log-deviation) · noise, entry by entry. -/
def weight {S : Shape} (mu ls eps : (⟨S, .f32⟩ : BufTy).Contents (Elt F)) : (⟨S, .f32⟩ : BufTy).Contents (Elt F) :=
  addf mu (mulf (Host.exp ls) eps)

/-- The design matrix of one graph convolution. The inputs (16 × 10000 × 2) and the state (16 × 640000, read as
    16 × 10000 × 64) are joined along the feature axis, moved node-major (10000 × 1056); one diffusion step gathers the
    rows named by the edges' source nodes, scales each by its edge weight and adds it into the row of the edge's target
    node; features and diffused features are then interleaved as rows of 132 per (batch entry, node). -/
def design (inp : (⟨S16x10000x2, .f32⟩ : BufTy).Contents (Elt F)) (st : (⟨S16x640000, .f32⟩ : BufTy).Contents (Elt F)) (ev : (⟨S80000, .f32⟩ : BufTy).Contents (Elt F))
    (er ec : (⟨S80000, .i32⟩ : BufTy).Contents (Elt F)) : (⟨S160000x132, .f32⟩ : BufTy).Contents (Elt F) :=
  have x0 : (⟨S10000x1056, .f32⟩ : BufTy).Contents (Elt F) :=
    shapeCast _ (transpose S10000x66x16 [1, 2, 0] (concatenate S16x10000x66 2 [⟨S16x10000x2, inp⟩, ⟨S16x10000x64, shapeCast _ st shapeCasts_S16x640000_S16x10000x64⟩] concatenates_S16x10000x2_S16x10000x64_S16x10000x66_d2) transposes_S16x10000x66_S10000x66x16_1_2_0) shapeCasts_S10000x66x16_S10000x1056
  have col : (⟨S80000, .i32⟩ : BufTy).Contents (Elt F) :=
    select (cmpi .slt ec (broadcastInDim S80000 ![] bcast_S_S80000 (constantI S_ 32 0#32))) (addi ec (broadcastInDim S80000 ![] bcast_S_S80000 (constantI S_ 32 10000#32))) ec
  have msg : (⟨S80000x1056, .f32⟩ : BufTy).Contents (Elt F) :=
    mulf (broadcastInDim S80000x1056 ![0, 1] bcast_S80000x1_S80000x1056_0_1 (broadcastInDim S80000x1 ![0] bcast_S80000_S80000x1_0 ev))
      (Host.gather gather_S10000x1056_S80000x1_S80000x1056_1_0_n_n_0_1_11056 x0 (broadcastInDim S80000x1 ![0] bcast_S80000_S80000x1_0 col))
  have x1 : (⟨S10000x1056, .f32⟩ : BufTy).Contents (Elt F) :=
    Host.scatterAdd scatter_S10000x1056_S80000x1_S80000x1056_1_0_0_1 (broadcastInDim S10000x1056 ![] bcast_S_S10000x1056 (constant S_ .f32 0x00000000#32)) (broadcastInDim S80000x1 ![0] bcast_S80000_S80000x1_0 er) msg
  shapeCast _ (transpose S16x10000x66x2 [3, 1, 2, 0] (shapeCast _ (concatenate S2x10000x1056 0 [⟨S1x10000x1056, broadcastInDim S1x10000x1056 ![1, 2] bcast_S10000x1056_S1x10000x1056_1_2 x0⟩, ⟨S1x10000x1056, broadcastInDim S1x10000x1056 ![1, 2] bcast_S10000x1056_S1x10000x1056_1_2 x1⟩] concatenates_S1x10000x1056_S1x10000x1056_S2x10000x1056_d0) shapeCasts_S2x10000x1056_S2x10000x66x16) transposes_S2x10000x66x16_S16x10000x66x2_3_1_2_0) shapeCasts_S16x10000x66x2_S160000x132

/-- The gate layer on the host: 1 / (1 + exp(−(X · W + b))), as a 16 × 10000 × 128 array. -/
def gates (x : (⟨S160000x132, .f32⟩ : BufTy).Contents (Elt F)) (w : (⟨S132x128, .f32⟩ : BufTy).Contents (Elt F)) (b : (⟨S128, .f32⟩ : BufTy).Contents (Elt F)) : (⟨S16x10000x128, .f32⟩ : BufTy).Contents (Elt F) :=
  Host.divf (broadcastInDim S16x10000x128 ![] bcast_S_S16x10000x128 (constant S_ .f32 0x3F800000#32))
    (addf (broadcastInDim S16x10000x128 ![] bcast_S_S16x10000x128 (constant S_ .f32 0x3F800000#32))
      (Host.exp (Host.negf (shapeCast _ (addf (Host.dotGeneral dot_S160000x132_S132x128_S160000x128_1_0_0_1_n_n none x w)
        (broadcastInDim S160000x128 ![0, 1] bcast_S1x128_S160000x128_0_1 (broadcastInDim S1x128 ![1] bcast_S128_S1x128_1 b)))
        shapeCasts_S160000x128_S16x10000x128))))

/-- The first 64 of the 128 gate features (the reset gate), as a 16 × 640000 array. -/
def resetHalf (g : (⟨S16x10000x128, .f32⟩ : BufTy).Contents (Elt F)) : (⟨S16x640000, .f32⟩ : BufTy).Contents (Elt F) :=
  shapeCast _ (extractStridedSlice S16x10000x64 ![0, 0, 0] g slices_S16x10000x128_S16x10000x64_0_0_0) shapeCasts_S16x10000x64_S16x640000

/-- The last 64 of the 128 gate features (the update gate), as a 16 × 640000 array. -/
def updateHalf (g : (⟨S16x10000x128, .f32⟩ : BufTy).Contents (Elt F)) : (⟨S16x640000, .f32⟩ : BufTy).Contents (Elt F) :=
  shapeCast _ (extractStridedSlice S16x10000x64 ![0, 0, 64] g slices_S16x10000x128_S16x10000x64_0_0_64) shapeCasts_S16x10000x64_S16x640000

/-- The candidate layer on the host: tanh(X · W + b), as a 16 × 640000 array. -/
def candidate (x : (⟨S160000x132, .f32⟩ : BufTy).Contents (Elt F)) (w : (⟨S132x64, .f32⟩ : BufTy).Contents (Elt F)) (b : (⟨S64, .f32⟩ : BufTy).Contents (Elt F)) : (⟨S16x640000, .f32⟩ : BufTy).Contents (Elt F) :=
  Host.tanh (shapeCast _ (shapeCast _ (addf (Host.dotGeneral dot_S160000x132_S132x64_S160000x64_1_0_0_1_n_n none x w)
    (broadcastInDim S160000x64 ![0, 1] bcast_S1x64_S160000x64_0_1 (broadcastInDim S1x64 ![1] bcast_S64_S1x64_1 b)))
    shapeCasts_S160000x64_S16x10000x64) shapeCasts_S16x10000x64_S16x640000)

/-- The new state on the host: u · h + (1 − u) · c. -/
def newState (u h c : (⟨S16x640000, .f32⟩ : BufTy).Contents (Elt F)) : (⟨S16x640000, .f32⟩ : BufTy).Contents (Elt F) :=
  addf (mulf u h) (mulf (subf (broadcastInDim S16x640000 ![] bcast_S_S16x640000 (constant S_ .f32 0x3F800000#32)) u) c)

/-- One step of the cell, from the seventeen arguments. -/
def cell (a0 : (⟨S16x20000, .f32⟩ : BufTy).Contents (Elt F)) (a1 : (⟨S16x640000, .f32⟩ : BufTy).Contents (Elt F)) (a2 : (⟨S80000, .f32⟩ : BufTy).Contents (Elt F))
    (a3 a4 : (⟨S132x128, .f32⟩ : BufTy).Contents (Elt F)) (a5 a6 : (⟨S128, .f32⟩ : BufTy).Contents (Elt F)) (a7 a8 : (⟨S132x64, .f32⟩ : BufTy).Contents (Elt F)) (a9 a10 : (⟨S64, .f32⟩ : BufTy).Contents (Elt F))
    (a11 : (⟨S132x128, .f32⟩ : BufTy).Contents (Elt F)) (a12 : (⟨S128, .f32⟩ : BufTy).Contents (Elt F)) (a13 : (⟨S132x64, .f32⟩ : BufTy).Contents (Elt F)) (a14 : (⟨S64, .f32⟩ : BufTy).Contents (Elt F))
    (a15 a16 : (⟨S80000, .i32⟩ : BufTy).Contents (Elt F)) : (⟨S16x640000, .f32⟩ : BufTy).Contents (Elt F) :=
  have inp : (⟨S16x10000x2, .f32⟩ : BufTy).Contents (Elt F) := shapeCast _ a0 shapeCasts_S16x20000_S16x10000x2
  have g : (⟨S16x10000x128, .f32⟩ : BufTy).Contents (Elt F) := gates (design inp a1 a2 a15 a16) (weight a3 a4 a11) (weight a5 a6 a12)
  newState (updateHalf g) a1
    (candidate (design inp (mulf (resetHalf g) a1) a2 a15 a16) (weight a7 a8 a13) (weight a9 a10 a14))

end Cert.ReferenceIdeal.Chain

end
-- ==== Proof.KHost.lean ====
/-
  The kernel program's four stretches of host operations, read at the buffers the kernel calls and the later stretches use,
  from any contents W of the buffers at the stretch's start and over any float family: the first stretch samples the four
  weights and builds the first design matrix; the second splits the gate layer's result into its reset and update halves;
  the third builds the second design matrix from the reset state; the last lays the candidate out as a 16 × 640000 array.
  Each value is stated with the reference program's own stage functions, so that the two programs are compared stage by stage.
-/
import proofs.«159687_j90202903150932_1_alg».proof.Proof.Gen.KernelIdeal.Launch
import proofs.«159687_j90202903150932_1_alg».proof.Proof.Chain
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.ShloMosaic.StableHlo

variable {F : FTy → Type} [FloatOps F] (W : Valuation τ sig (Elt F))

/-! ## The first stretch -/

set_option maxHeartbeats 2000000 in
/-- The first design matrix: of the inputs and the launch state. -/
theorem ops0_v35 : StableHlo.after (hostOps0 (F := F)) W (Proc.devRef .tc main_v35)
    = Cert.ReferenceIdeal.Chain.design (shapeCast _ (W (Proc.devRef .tc main_arg0)) shapeCasts_S16x20000_S16x10000x2)
        (W (Proc.devRef .tc main_arg1)) (W (Proc.devRef .tc main_arg2)) (W (Proc.devRef .tc main_arg15)) (W (Proc.devRef .tc main_arg16)) := by
  dsimp only [hostOps0]; after_results_simp; rfl

/-- The gate layer's weight matrix. -/
theorem ops0_v2 : StableHlo.after (hostOps0 (F := F)) W (Proc.devRef .tc main_v2)
    = Cert.ReferenceIdeal.Chain.weight (W (Proc.devRef .tc main_arg3)) (W (Proc.devRef .tc main_arg4)) (W (Proc.devRef .tc main_arg11)) := by
  dsimp only [hostOps0]; after_results; rfl

/-- The gate layer's bias, as one row. -/
theorem ops0_v36 : StableHlo.after (hostOps0 (F := F)) W (Proc.devRef .tc main_v36)
    = shapeCast _ (Cert.ReferenceIdeal.Chain.weight (W (Proc.devRef .tc main_arg5)) (W (Proc.devRef .tc main_arg6)) (W (Proc.devRef .tc main_arg12))) shapeCasts_S128_S1x128 := by
  dsimp only [hostOps0]; after_results; rfl

/-- The candidate layer's weight matrix. -/
theorem ops0_v8 : StableHlo.after (hostOps0 (F := F)) W (Proc.devRef .tc main_v8)
    = Cert.ReferenceIdeal.Chain.weight (W (Proc.devRef .tc main_arg7)) (W (Proc.devRef .tc main_arg8)) (W (Proc.devRef .tc main_arg13)) := by
  dsimp only [hostOps0]; after_results; rfl

/-- The candidate layer's bias. -/
theorem ops0_v11 : StableHlo.after (hostOps0 (F := F)) W (Proc.devRef .tc main_v11)
    = Cert.ReferenceIdeal.Chain.weight (W (Proc.devRef .tc main_arg9)) (W (Proc.devRef .tc main_arg10)) (W (Proc.devRef .tc main_arg14)) := by
  dsimp only [hostOps0]; after_results; rfl

/-- The inputs as 16 × 10000 × 2. -/
theorem ops0_v12 : StableHlo.after (hostOps0 (F := F)) W (Proc.devRef .tc main_v12)
    = shapeCast _ (W (Proc.devRef .tc main_arg0)) shapeCasts_S16x20000_S16x10000x2 := by
  dsimp only [hostOps0]; after_results; rfl

theorem ops0_arg1 : StableHlo.after (hostOps0 (F := F)) W (Proc.devRef .tc main_arg1) = W (Proc.devRef .tc main_arg1) := by
  dsimp only [hostOps0]; after_results <;> rfl
theorem ops0_arg2 : StableHlo.after (hostOps0 (F := F)) W (Proc.devRef .tc main_arg2) = W (Proc.devRef .tc main_arg2) := by
  dsimp only [hostOps0]; after_results <;> rfl
theorem ops0_arg15 : StableHlo.after (hostOps0 (F := F)) W (Proc.devRef .tc main_arg15) = W (Proc.devRef .tc main_arg15) := by
  dsimp only [hostOps0]; after_results <;> rfl
theorem ops0_arg16 : StableHlo.after (hostOps0 (F := F)) W (Proc.devRef .tc main_arg16) = W (Proc.devRef .tc main_arg16) := by
  dsimp only [hostOps0]; after_results <;> rfl

/-! ## The second stretch -/

/-- The reset gate: the first half of the gate layer's features. -/
theorem ops1_v40 : StableHlo.after (hostOps1 (F := F)) W (Proc.devRef .tc main_v40)
    = Cert.ReferenceIdeal.Chain.resetHalf (shapeCast _ (W (Proc.devRef .tc main_v37)) shapeCasts_S160000x128_S16x10000x128) := by
  dsimp only [hostOps1]; after_results; rfl

/-- The update gate: the second half. -/
theorem ops1_v42 : StableHlo.after (hostOps1 (F := F)) W (Proc.devRef .tc main_v42)
    = Cert.ReferenceIdeal.Chain.updateHalf (shapeCast _ (W (Proc.devRef .tc main_v37)) shapeCasts_S160000x128_S16x10000x128) := by
  dsimp only [hostOps1]; after_results; rfl

theorem ops1_arg1 : StableHlo.after (hostOps1 (F := F)) W (Proc.devRef .tc main_arg1) = W (Proc.devRef .tc main_arg1) := by
  dsimp only [hostOps1]; after_results <;> rfl
theorem ops1_arg2 : StableHlo.after (hostOps1 (F := F)) W (Proc.devRef .tc main_arg2) = W (Proc.devRef .tc main_arg2) := by
  dsimp only [hostOps1]; after_results <;> rfl
theorem ops1_arg15 : StableHlo.after (hostOps1 (F := F)) W (Proc.devRef .tc main_arg15) = W (Proc.devRef .tc main_arg15) := by
  dsimp only [hostOps1]; after_results <;> rfl
theorem ops1_arg16 : StableHlo.after (hostOps1 (F := F)) W (Proc.devRef .tc main_arg16) = W (Proc.devRef .tc main_arg16) := by
  dsimp only [hostOps1]; after_results <;> rfl
theorem ops1_v8 : StableHlo.after (hostOps1 (F := F)) W (Proc.devRef .tc main_v8) = W (Proc.devRef .tc main_v8) := by
  dsimp only [hostOps1]; after_results <;> rfl
theorem ops1_v11 : StableHlo.after (hostOps1 (F := F)) W (Proc.devRef .tc main_v11) = W (Proc.devRef .tc main_v11) := by
  dsimp only [hostOps1]; after_results <;> rfl
theorem ops1_v12 : StableHlo.after (hostOps1 (F := F)) W (Proc.devRef .tc main_v12) = W (Proc.devRef .tc main_v12) := by
  dsimp only [hostOps1]; after_results <;> rfl

/-! ## The third stretch -/

set_option maxHeartbeats 2000000 in
/-- The second design matrix: of the inputs and the reset state. -/
theorem ops2_v66 : StableHlo.after (hostOps2 (F := F)) W (Proc.devRef .tc main_v66)
    = Cert.ReferenceIdeal.Chain.design (W (Proc.devRef .tc main_v12)) (W (Proc.devRef .tc main_v43))
        (W (Proc.devRef .tc main_arg2)) (W (Proc.devRef .tc main_arg15)) (W (Proc.devRef .tc main_arg16)) := by
  dsimp only [hostOps2]; after_results_simp; rfl

/-- The candidate layer's bias, as one row. -/
theorem ops2_v67 : StableHlo.after (hostOps2 (F := F)) W (Proc.devRef .tc main_v67)
    = shapeCast _ (W (Proc.devRef .tc main_v11)) shapeCasts_S64_S1x64 := by
  dsimp only [hostOps2]; after_results; rfl

theorem ops2_v8 : StableHlo.after (hostOps2 (F := F)) W (Proc.devRef .tc main_v8) = W (Proc.devRef .tc main_v8) := by
  dsimp only [hostOps2]; after_results <;> rfl
theorem ops2_v42 : StableHlo.after (hostOps2 (F := F)) W (Proc.devRef .tc main_v42) = W (Proc.devRef .tc main_v42) := by
  dsimp only [hostOps2]; after_results <;> rfl
theorem ops2_arg1 : StableHlo.after (hostOps2 (F := F)) W (Proc.devRef .tc main_arg1) = W (Proc.devRef .tc main_arg1) := by
  dsimp only [hostOps2]; after_results <;> rfl

/-! ## The last stretch -/

/-- The candidate as a 16 × 640000 array. -/
theorem ops3_v69 : StableHlo.after (hostOps3 (F := F)) W (Proc.devRef .tc main_v69)
    = shapeCast _ (W (Proc.devRef .tc main_v68)) shapeCasts_S160000x64_S16x640000 := by
  dsimp only [hostOps3]; after_results; rfl

theorem ops3_v42 : StableHlo.after (hostOps3 (F := F)) W (Proc.devRef .tc main_v42) = W (Proc.devRef .tc main_v42) := by
  dsimp only [hostOps3]; after_results <;> rfl
theorem ops3_arg1 : StableHlo.after (hostOps3 (F := F)) W (Proc.devRef .tc main_arg1) = W (Proc.devRef .tc main_arg1) := by
  dsimp only [hostOps3]; after_results <;> rfl

end Cert.KernelIdeal.HostRead

end
-- ==== Proof.Spec.lean ====
/-
  The mathematics of one step of a graph-convolutional gated recurrent cell, as whole-array functions on the extended reals.

  A dense layer sends a design matrix X of 160000 rows and 132 columns, a weight matrix W with 132 rows and a one-row
  bias b to the array whose entry (i, j) is the sum over k of X(i, k) · W(k, j), plus b(0, j). The gate layer applies the
  logistic function to it, the candidate layer the hyperbolic tangent. The cell's new state blends the old state h and the
  candidate c with the update gate u: u · h + (1 − u) · c, entry by entry.
-/
import Idealize.ShloMosaic.PureOps.Ideal
import Idealize.ShloMosaic.Lib.ValueIdx

noncomputable section

namespace Cert.GruCell

open Idealize.ShloMosaic Idealize.ShloMosaic.ValueIdx

/-- Entry (i, j) of X · W + b: the sum over the 132 columns of row i of X against column j of W, plus the bias of column j. -/
def affine {N : Nat} (x : FVec Ideal ⟨2, ![160000, 132]⟩ .f32) (w : FVec Ideal ⟨2, ![132, N]⟩ .f32)
    (b : FVec Ideal ⟨2, ![1, N]⟩ .f32) : FVec Ideal ⟨2, ![160000, N]⟩ .f32 :=
  fun i => (∑ k : Fin 132, x (ix2 (i 0) k) * w (ix2 k (i 1))) + b (ix2 (0 : Fin 1) (i 1))

/-- The gate layer: the logistic function of X · W + b, entry by entry. -/
def gate (x : FVec Ideal ⟨2, ![160000, 132]⟩ .f32) (w : FVec Ideal ⟨2, ![132, 128]⟩ .f32)
    (b : FVec Ideal ⟨2, ![1, 128]⟩ .f32) : FVec Ideal ⟨2, ![160000, 128]⟩ .f32 :=
  fun i => Ideal.logistic (affine x w b i)

/-- The candidate layer: the hyperbolic tangent of X · W + b, entry by entry. -/
def cand (x : FVec Ideal ⟨2, ![160000, 132]⟩ .f32) (w : FVec Ideal ⟨2, ![132, 64]⟩ .f32)
    (b : FVec Ideal ⟨2, ![1, 64]⟩ .f32) : FVec Ideal ⟨2, ![160000, 64]⟩ .f32 :=
  fun i => Ideal.tanh (affine x w b i)

/-- The reset gate applied to the state: r · h, entry by entry. -/
def gated (r h : FVec Ideal ⟨2, ![16, 640000]⟩ .f32) : FVec Ideal ⟨2, ![16, 640000]⟩ .f32 :=
  fun i => r i * h i

/-- The new state: u · h + (1 − u) · c, entry by entry. -/
def blend (u h c : FVec Ideal ⟨2, ![16, 640000]⟩ .f32) : FVec Ideal ⟨2, ![16, 640000]⟩ .f32 :=
  fun i => u i * h i + (1 - u i) * c i

end Cert.GruCell

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibHostRead.lean ====
/-
  General lemmas for reading a host program's operations at an index, at the ideal instance.

  * `hostDotGeneral_plain_apply`: the host's product of an [M, K] operand with a [K, N] operand, read at (p, j), is the
    sum over k of lhs (p, k) · rhs (k, j), for any record of dimension numbers whose four axis facts are given (the
    host's product is the kernel's product into a zero accumulator).
  * `hostReduceAdd_rows_apply`: the host's sum of an [R, K] array along its last axis, read at row r, is the initial
    value plus the sum over k of the array at (r, k).
  * `broadcastInDim_vec_row_apply`: a vector of n entries laid out as the one row of a [1, n] array reads, at (u, k),
    the vector at k.
  * `broadcastInDim_vec_col_apply`: a vector of n entries laid out as the one column of an [n, 1] array reads, at
    (r, u), the vector at r.
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost
import proofs.«159687_j90202903150932_1_alg».proof.Proof.LibPlainDot

noncomputable section

namespace Cert.LibHostRead

open Idealize.ShloMosaic Idealize.ShloMosaic.ValueIdx

/-- The host's plain two-operand matrix product read at (p, j): ∑ₖ lhs (p, k) · rhs (k, j). -/
theorem hostDotGeneral_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    Host.dotGeneral d prec lhs rhs (ix2 p j) = ∑ k : Fin K, lhs (ix2 p k) * rhs (ix2 k j) := by
  rw [← matmul_zero_eq_dotGeneral]
  exact Cert.Lib.matmul_plain_apply d hr hs hl0 hl1 hr0 hr1 prec lhs rhs p j

/-- The host's row-wise sum of an [R, K] array read at row r: the initial value plus ∑ₖ x (r, k). -/
theorem hostReduceAdd_rows_apply {R K : ℕ} {φ : FTy} (x : FVec Ideal ⟨2, ![R, K]⟩ φ) (init : (⟨0, ![]⟩ : Shape).Idx → Ideal φ)
    (h' : (⟨2, ![R, K]⟩ : Shape).ReducesTo [1] ⟨1, ![R]⟩) (hu : 0 < (⟨0, ![]⟩ : Shape).numel)
    (h : (⟨2, ![R, K]⟩ : Shape).Reduces [1] ⟨1, ![R]⟩) (r : Fin R) :
    Host.reduceAdd x init h' hu (ix1 r) = init ix0 + ∑ k : Fin K, x (ix2 r k) := by
  rw [hostReduceAdd_apply]
  refine (Ideal.hostReduceAdd_single h' h x _ (ix1 r)).trans ?_
  refine congr (congrArg (· + ·) (congrArg init (eq_ix0 _))) (Finset.sum_congr rfl fun k _ => ?_)
  exact congrArg x (funext fun a => Fin.ext (by match a with | ⟨0, _⟩ => rfl | ⟨1, _⟩ => rfl))

variable {α : Type}

/-- A vector laid out as the one row of a [1, n] array reads, at (u, k), the vector at k. -/
theorem broadcastInDim_vec_row_apply {n : ℕ} (h : (⟨1, ![n]⟩ : Shape).BroadcastsInDim ⟨2, ![1, n]⟩ ![1])
    (v : (⟨1, ![n]⟩ : Shape).Idx → α) (u : Fin 1) (k : Fin n) :
    broadcastInDim ⟨2, ![1, n]⟩ ![1] h v (ix2 u k) = v (ix1 k) := by
  refine broadcastInDim_apply ![1] h v (ix2 u k) (ix1 k) fun a => ?_
  match a with
  | ⟨0, _⟩ =>
    show k.val = if n = 1 then 0 else k.val
    split
    · have := k.isLt; omega
    · rfl

/-- A vector laid out as the one column of an [n, 1] array reads, at (r, u), the vector at r. -/
theorem broadcastInDim_vec_col_apply {n : ℕ} (h : (⟨1, ![n]⟩ : Shape).BroadcastsInDim ⟨2, ![n, 1]⟩ ![0])
    (v : (⟨1, ![n]⟩ : Shape).Idx → α) (r : Fin n) (u : Fin 1) :
    broadcastInDim ⟨2, ![n, 1]⟩ ![0] h v (ix2 r u) = v (ix1 r) := by
  refine broadcastInDim_apply ![0] h v (ix2 r u) (ix1 r) fun a => ?_
  match a with
  | ⟨0, _⟩ =>
    show r.val = if n = 1 then 0 else r.val
    split
    · have := r.isLt; omega
    · rfl

end Cert.LibHostRead

end
-- ==== Proof.Stages.lean ====
/-
  The reference program's host operations for one gated recurrent cell compute the arrays of the cell's mathematics.

  * `gate_stage`: the gate layer, the logistic function of X · W + b, viewed as a [16, 10000, 128] array, is what the
    host's expansion 1 / (1 + exp (−(X · W + b))) computes, entry by entry.
  * `cand_stage`: the candidate layer, the hyperbolic tangent of X · W + b, viewed as a [16, 640000] array, is the
    host's tanh of the same affine map carried there through the [16, 10000, 64] view.
  * `blend_stage`: the new state u · h + (1 − u) · c is the host's sum of products, the 1 a broadcast constant.

  Everything is read entry by entry. A change of view reads its operand at the index of the same row-major position,
  and that index does not depend on the operand, so two arrays that agree entry by entry agree under a change of view.
-/
import proofs.«159687_j90202903150932_1_alg».proof.Proof.Gen.ReferenceIdeal
import proofs.«159687_j90202903150932_1_alg».proof.Proof.Spec
import proofs.«159687_j90202903150932_1_alg».proof.Proof.LibPlainDot
import proofs.«159687_j90202903150932_1_alg».proof.Proof.LibHostRead
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

set_option maxRecDepth 16384

noncomputable section

namespace Cert.ReferenceIdeal.Stages

open Idealize.ShloMosaic Idealize.ShloMosaic.TcCoe Idealize.ShloMosaic.ValueIdx
open Cert.ReferenceIdeal Cert.ReferenceIdeal.Gen

/-! ## The two products' dimension numbers: rows from the left operand, columns from the right, one contracted axis -/

theorem gateDot_lhs_0 (i : S160000x128.Idx) (q : dot_S160000x132_S132x128_S160000x128_1_0_0_1_n_n.contr.Idx) :
    (dot_S160000x132_S132x128_S160000x128_1_0_0_1_n_n.lhsIdx i q 0).val = (i 0).val := by
  unfold DotDims.lhsIdx
  rw [dif_neg (show ¬(0 : Fin S160000x132.rank) ∈ dot_S160000x132_S132x128_S160000x128_1_0_0_1_n_n.lhsBatch by decide),
    dif_pos (show (0 : Fin S160000x132.rank) ∈ dot_S160000x132_S132x128_S160000x128_1_0_0_1_n_n.lhsNonContracting by decide)]
  rfl

theorem gateDot_lhs_1 (i : S160000x128.Idx) (q : dot_S160000x132_S132x128_S160000x128_1_0_0_1_n_n.contr.Idx) :
    (dot_S160000x132_S132x128_S160000x128_1_0_0_1_n_n.lhsIdx i q 1).val = (q ⟨0, by decide⟩).val :=
  dot_S160000x132_S132x128_S160000x128_1_0_0_1_n_n.lhsIdx_val_of_single rfl i q

theorem gateDot_rhs_0 (i : S160000x128.Idx) (q : dot_S160000x132_S132x128_S160000x128_1_0_0_1_n_n.contr.Idx) :
    (dot_S160000x132_S132x128_S160000x128_1_0_0_1_n_n.rhsIdx i q 0).val = (q ⟨0, by decide⟩).val :=
  dot_S160000x132_S132x128_S160000x128_1_0_0_1_n_n.rhsIdx_val_of_single rfl i q

theorem gateDot_rhs_1 (i : S160000x128.Idx) (q : dot_S160000x132_S132x128_S160000x128_1_0_0_1_n_n.contr.Idx) :
    (dot_S160000x132_S132x128_S160000x128_1_0_0_1_n_n.rhsIdx i q 1).val = (i 1).val := by
  unfold DotDims.rhsIdx
  rw [dif_neg (show ¬(1 : Fin S132x128.rank) ∈ dot_S160000x132_S132x128_S160000x128_1_0_0_1_n_n.rhsBatch by decide),
    dif_pos (show (1 : Fin S132x128.rank) ∈ dot_S160000x132_S132x128_S160000x128_1_0_0_1_n_n.rhsNonContracting by decide)]
  rfl

theorem candDot_lhs_0 (i : S160000x64.Idx) (q : dot_S160000x132_S132x64_S160000x64_1_0_0_1_n_n.contr.Idx) :
    (dot_S160000x132_S132x64_S160000x64_1_0_0_1_n_n.lhsIdx i q 0).val = (i 0).val := by
  unfold DotDims.lhsIdx
  rw [dif_neg (show ¬(0 : Fin S160000x132.rank) ∈ dot_S160000x132_S132x64_S160000x64_1_0_0_1_n_n.lhsBatch by decide),
    dif_pos (show (0 : Fin S160000x132.rank) ∈ dot_S160000x132_S132x64_S160000x64_1_0_0_1_n_n.lhsNonContracting by decide)]
  rfl

theorem candDot_lhs_1 (i : S160000x64.Idx) (q : dot_S160000x132_S132x64_S160000x64_1_0_0_1_n_n.contr.Idx) :
    (dot_S160000x132_S132x64_S160000x64_1_0_0_1_n_n.lhsIdx i q 1).val = (q ⟨0, by decide⟩).val :=
  dot_S160000x132_S132x64_S160000x64_1_0_0_1_n_n.lhsIdx_val_of_single rfl i q

theorem candDot_rhs_0 (i : S160000x64.Idx) (q : dot_S160000x132_S132x64_S160000x64_1_0_0_1_n_n.contr.Idx) :
    (dot_S160000x132_S132x64_S160000x64_1_0_0_1_n_n.rhsIdx i q 0).val = (q ⟨0, by decide⟩).val :=
  dot_S160000x132_S132x64_S160000x64_1_0_0_1_n_n.rhsIdx_val_of_single rfl i q

theorem candDot_rhs_1 (i : S160000x64.Idx) (q : dot_S160000x132_S132x64_S160000x64_1_0_0_1_n_n.contr.Idx) :
    (dot_S160000x132_S132x64_S160000x64_1_0_0_1_n_n.rhsIdx i q 1).val = (i 1).val := by
  unfold DotDims.rhsIdx
  rw [dif_neg (show ¬(1 : Fin S132x64.rank) ∈ dot_S160000x132_S132x64_S160000x64_1_0_0_1_n_n.rhsBatch by decide),
    dif_pos (show (1 : Fin S132x64.rank) ∈ dot_S160000x132_S132x64_S160000x64_1_0_0_1_n_n.rhsNonContracting by decide)]
  rfl

/-! ## The affine map X · W + b, read at an entry -/

/-- The host's X · W plus the bias vector laid out along every row, at entry (p, q), is the affine map's entry (p, q), the
    bias there being the vector viewed as one row. -/
theorem affine128_apply (X : FVec Ideal S160000x132 .f32) (W : FVec Ideal S132x128 .f32) (B : FVec Ideal S128 .f32)
    (h1 : S128.ShapeCasts S1x128) (p : Fin 160000) (q : Fin 128) :
    addf (Host.dotGeneral dot_S160000x132_S132x128_S160000x128_1_0_0_1_n_n none X W)
        (broadcastInDim S160000x128 ![0, 1] bcast_S1x128_S160000x128_0_1 (broadcastInDim S1x128 ![1] bcast_S128_S1x128_1 B)) (ix2 p q)
      = Cert.GruCell.affine X W (shapeCast S1x128 B h1) (ix2 p q) := by
  rw [addf_apply]
  rw [Cert.LibHostRead.hostDotGeneral_plain_apply dot_S160000x132_S132x128_S160000x128_1_0_0_1_n_n rfl rfl
    gateDot_lhs_0 gateDot_lhs_1 gateDot_rhs_0 gateDot_rhs_1 none X W p q]
  rw [broadcastInDim_oneRow_apply, Cert.LibHostRead.broadcastInDim_vec_row_apply]
  unfold Cert.GruCell.affine
  rw [shapeCast_a_1a_apply]

theorem affine64_apply (X : FVec Ideal S160000x132 .f32) (W : FVec Ideal S132x64 .f32) (B : FVec Ideal S64 .f32)
    (h1 : S64.ShapeCasts S1x64) (p : Fin 160000) (q : Fin 64) :
    addf (Host.dotGeneral dot_S160000x132_S132x64_S160000x64_1_0_0_1_n_n none X W)
        (broadcastInDim S160000x64 ![0, 1] bcast_S1x64_S160000x64_0_1 (broadcastInDim S1x64 ![1] bcast_S64_S1x64_1 B)) (ix2 p q)
      = Cert.GruCell.affine X W (shapeCast S1x64 B h1) (ix2 p q) := by
  rw [addf_apply]
  rw [Cert.LibHostRead.hostDotGeneral_plain_apply dot_S160000x132_S132x64_S160000x64_1_0_0_1_n_n rfl rfl
    candDot_lhs_0 candDot_lhs_1 candDot_rhs_0 candDot_rhs_1 none X W p q]
  rw [broadcastInDim_oneRow_apply, Cert.LibHostRead.broadcastInDim_vec_row_apply]
  unfold Cert.GruCell.affine
  rw [shapeCast_a_1a_apply]

/-! ## Changes of view -/

/-- Two changes of view in a row read the operand where one change of view does: at the index of the same row-major
    position. -/
theorem shapeCast_twice_apply {s t u : Shape} {α : Type} (x : s.Idx → α) (h : s.ShapeCasts t) (h' : t.ShapeCasts u)
    (h'' : s.ShapeCasts u) (i : u.Idx) : shapeCast u (shapeCast t x h) h' i = x (Shape.reshapeEquiv h'' i) := by
  show x (Shape.reshapeEquiv h (Shape.reshapeEquiv h' i)) = x (Shape.reshapeEquiv h'' i)
  rw [Shape.reshapeEquiv_reshapeEquiv]

/-! ## The three stages -/

/-- The gate layer under the [16, 10000, 128] view: the logistic function is 1 / (1 + exp (−x)), and both sides read
    the [160000, 128] arrays at the same entry. -/
theorem gate_stage (X : FVec Ideal S160000x132 .f32) (W : FVec Ideal S132x128 .f32) (B : FVec Ideal S128 .f32)
    (h1 : S128.ShapeCasts S1x128) (h2 : S160000x128.ShapeCasts S16x10000x128) :
    shapeCast S16x10000x128 (Cert.GruCell.gate X W (shapeCast S1x128 B h1)) h2
      = Host.divf (broadcastInDim S16x10000x128 ![] bcast_S_S16x10000x128 (constant (F := Ideal) S_ .f32 0x3F800000#32))
          (addf (broadcastInDim S16x10000x128 ![] bcast_S_S16x10000x128 (constant (F := Ideal) S_ .f32 0x3F800000#32))
            (Host.exp (Host.negf (shapeCast _ (addf (Host.dotGeneral dot_S160000x132_S132x128_S160000x128_1_0_0_1_n_n none X W)
              (broadcastInDim S160000x128 ![0, 1] bcast_S1x128_S160000x128_0_1 (broadcastInDim S1x128 ![1] bcast_S128_S1x128_1 B)))
              shapeCasts_S160000x128_S16x10000x128)))) := by
  funext i
  have key : ∀ j : S160000x128.Idx, Cert.GruCell.gate X W (shapeCast S1x128 B h1) j
      = Ideal.div 1 (1 + Ideal.exp (-(addf (Host.dotGeneral dot_S160000x132_S132x128_S160000x128_1_0_0_1_n_n none X W)
          (broadcastInDim S160000x128 ![0, 1] bcast_S1x128_S160000x128_0_1 (broadcastInDim S1x128 ![1] bcast_S128_S1x128_1 B)) j))) := by
    intro j
    obtain ⟨p, q, rfl⟩ : ∃ (p : Fin 160000) (q : Fin 128), j = ix2 p q := ⟨j 0, j 1, eq_ix2 j⟩
    rw [affine128_apply X W B h1 p q]
    rfl
  rw [hostDivf_apply, addf_apply, broadcastInDim_scalar_apply, constant_apply, Ideal.ofBits_one_f32]
  exact key (Shape.reshapeEquiv h2 i)

/-- The candidate layer under the [16, 640000] view: the host reaches that view through [16, 10000, 64], which reads
    the [160000, 64] array at the same entry. -/
theorem cand_stage (X : FVec Ideal S160000x132 .f32) (W : FVec Ideal S132x64 .f32) (B : FVec Ideal S64 .f32)
    (h1 : S64.ShapeCasts S1x64) (h2 : S160000x64.ShapeCasts S16x640000) :
    shapeCast S16x640000 (Cert.GruCell.cand X W (shapeCast S1x64 B h1)) h2
      = Host.tanh (shapeCast _ (shapeCast _ (addf (Host.dotGeneral dot_S160000x132_S132x64_S160000x64_1_0_0_1_n_n none X W)
              (broadcastInDim S160000x64 ![0, 1] bcast_S1x64_S160000x64_0_1 (broadcastInDim S1x64 ![1] bcast_S64_S1x64_1 B)))
              shapeCasts_S160000x64_S16x10000x64) shapeCasts_S16x10000x64_S16x640000) := by
  funext i
  have key : ∀ j : S160000x64.Idx, Cert.GruCell.cand X W (shapeCast S1x64 B h1) j
      = Ideal.tanh (addf (Host.dotGeneral dot_S160000x132_S132x64_S160000x64_1_0_0_1_n_n none X W)
          (broadcastInDim S160000x64 ![0, 1] bcast_S1x64_S160000x64_0_1 (broadcastInDim S1x64 ![1] bcast_S64_S1x64_1 B)) j) := by
    intro j
    obtain ⟨p, q, rfl⟩ : ∃ (p : Fin 160000) (q : Fin 64), j = ix2 p q := ⟨j 0, j 1, eq_ix2 j⟩
    rw [affine64_apply X W B h1 p q]
    rfl
  show _ = Ideal.tanh (shapeCast S16x640000 (shapeCast S16x10000x64 _ shapeCasts_S160000x64_S16x10000x64) shapeCasts_S16x10000x64_S16x640000 i)
  rw [shapeCast_twice_apply _ _ _ h2 i]
  exact key (Shape.reshapeEquiv h2 i)

/-- The new state, entry by entry; the broadcast constant is 1. -/
theorem blend_stage (u h c : FVec Ideal S16x640000 .f32) :
    Cert.GruCell.blend u h c
      = addf (mulf u h) (mulf (subf (broadcastInDim S16x640000 ![] bcast_S_S16x640000 (constant (F := Ideal) S_ .f32 0x3F800000#32)) u) c) := by
  funext i
  rw [addf_apply, mulf_apply, mulf_apply, subf_apply, broadcastInDim_scalar_apply, constant_apply, Ideal.ofBits_one_f32]
  rfl

end Cert.ReferenceIdeal.Stages

end
-- ==== Proof.RegionGate.lean ====
/-
  The gate layer of the cell, from blocks of rows to the whole array.

  The region walks the 160000 rows of the design matrix X in 40 blocks of 4000 rows. At block t it holds rows
  4000 t … 4000 t + 3999 of X, the whole weight matrix W (132 by 128) and the one-row bias b, and leaves in rows
  4000 t … 4000 t + 3999 of the output the logistic function of X · W + b. Here: the body's arithmetic read at one
  entry (a sum over the 132 columns, plus the bias of the column, through the logistic function); each block read
  where it lies in its array; the block an output point writes back as a block of the gate layer of the whole
  arrays; and, the 40 blocks covering every row, the output array as the gate layer itself.
-/
import proofs.«159687_j90202903150932_1_alg».proof.Proof.Gen.KernelIdeal.Frame
import proofs.«159687_j90202903150932_1_alg».proof.Proof.Spec
import proofs.«159687_j90202903150932_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! ## The body's arithmetic at one entry -/

/-- The product's row index comes from the left operand's rows … -/
theorem gate_dot_lhs_row (i : S4000x128.Idx) (q : dot_S4000x132_S132x128_S4000x128_1_0_0_1_n_n.contr.Idx) :
    (dot_S4000x132_S132x128_S4000x128_1_0_0_1_n_n.lhsIdx i q 0).val = (i 0).val := by
  unfold DotDims.lhsIdx
  rw [dif_neg (show ¬(0 : Fin S4000x132.rank) ∈ dot_S4000x132_S132x128_S4000x128_1_0_0_1_n_n.lhsBatch by decide), dif_pos (show (0 : Fin S4000x132.rank) ∈ dot_S4000x132_S132x128_S4000x128_1_0_0_1_n_n.lhsNonContracting by decide)]
  rfl
/-- … the left operand's column is the summation index … -/
theorem gate_dot_lhs_col (i : S4000x128.Idx) (q : dot_S4000x132_S132x128_S4000x128_1_0_0_1_n_n.contr.Idx) :
    (dot_S4000x132_S132x128_S4000x128_1_0_0_1_n_n.lhsIdx i q 1).val = (q ⟨0, by decide⟩).val :=
  dot_S4000x132_S132x128_S4000x128_1_0_0_1_n_n.lhsIdx_val_of_single rfl i q
/-- … which is also the right operand's row … -/
theorem gate_dot_rhs_row (i : S4000x128.Idx) (q : dot_S4000x132_S132x128_S4000x128_1_0_0_1_n_n.contr.Idx) :
    (dot_S4000x132_S132x128_S4000x128_1_0_0_1_n_n.rhsIdx i q 0).val = (q ⟨0, by decide⟩).val :=
  dot_S4000x132_S132x128_S4000x128_1_0_0_1_n_n.rhsIdx_val_of_single rfl i q
/-- … and the product's column index comes from the right operand's columns. -/
theorem gate_dot_rhs_col (i : S4000x128.Idx) (q : dot_S4000x132_S132x128_S4000x128_1_0_0_1_n_n.contr.Idx) :
    (dot_S4000x132_S132x128_S4000x128_1_0_0_1_n_n.rhsIdx i q 1).val = (i 1).val := by
  unfold DotDims.rhsIdx
  rw [dif_neg (show ¬(1 : Fin S132x128.rank) ∈ dot_S4000x132_S132x128_S4000x128_1_0_0_1_n_n.rhsBatch by decide), dif_pos (show (1 : Fin S132x128.rank) ∈ dot_S4000x132_S132x128_S4000x128_1_0_0_1_n_n.rhsNonContracting by decide)]
  rfl

/-- The one-row bias spread over the 4000 rows reads, at (p, q), the bias of column q. -/
theorem gate_bias_apply (x2 : Vec Ideal S1x128 .f32) (p : Fin 4000) (q : Fin 128) :
    broadcastTo S4000x128 x2 broadcasts_S1x128_S4000x128 (ix2 p q) = x2 (ix2 (0 : Fin 1) q) := by
  refine broadcastTo_apply x2 broadcasts_S1x128_S4000x128 (ix2 p q) (ix2 (0 : Fin 1) q) fun a => ?_
  match a with
  | ⟨0, _⟩ => rfl
  | ⟨1, _⟩ => rfl

/-- The body's value at entry (p, q) of a block: the logistic function of the sum over k of x0 (p, k) · x1 (k, q),
    plus the bias x2 (0, q). The narrowing of the two operands before the product is the identity on extended reals. -/
theorem gate_payload_apply (x0 : Vec Ideal S4000x132 .f32) (x1 : Vec Ideal S132x128 .f32) (x2 : Vec Ideal S1x128 .f32)
    (p : Fin 4000) (q : Fin 128) :
    k0_pay1 (F := Ideal) x0 x1 x2 (ix2 p q)
      = Ideal.logistic ((∑ k : Fin 132, x0 (ix2 p k) * x1 (ix2 k q)) + x2 (ix2 (0 : Fin 1) q)) := by
  unfold k0_pay1
  refine congrArg Ideal.logistic ?_
  refine congrArg₂ (· + ·) ?_ ?_
  · refine (Cert.Lib.matmul_plain_apply dot_S4000x132_S132x128_S4000x128_1_0_0_1_n_n rfl rfl gate_dot_lhs_row gate_dot_lhs_col gate_dot_rhs_row
      gate_dot_rhs_col none _ _ p q).trans ?_
    refine Finset.sum_congr rfl fun k _ => ?_
    exact congrArg₂ (· * ·) (congrFun (shapeCast_self x0 shapeCasts_S4000x132_S4000x132) (ix2 p k))
      (congrFun (shapeCast_self x1 shapeCasts_S132x128_S132x128) (ix2 k q))
  · refine (gate_bias_apply _ p q).trans ?_
    rw [shapeCast_self, shapeCast_self]

/-! ## Where each block lies in its array -/

variable (V : (c : Dev nD) → (b : Ref sig .tc) → Buf (Elt Ideal) ((c : Thread nD τ).loc b))

theorem gate_origin : (![0, 0] : Fin 2 → Nat) = fun _ => 0 := funext fun a => by fin_cases a <;> rfl

/-- The block indices, decided over the 40 points: the design matrix and the output move down one block of rows per
    point; the weights and the bias stay where they are. -/
theorem gate_block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The weights' block at every point is the whole weight matrix. -/
theorem gate_weights_block (c : Dev nD) (t : Fin cfg0.N) : iblk0 V c 1 t = V c main_v2 := by
  unfold iblk0
  obtain ⟨-, -, e2, e3, -, -, -, -⟩ := gate_block_indices t
  funext y
  show V c main_v2 (((cfg0.win 1).blk t).view.emb y) = V c main_v2 y
  refine congrArg (V c main_v2) (funext fun a => Fin.ext ?_)
  match a with
  | ⟨0, _⟩ => show win0_1.index t (0 : Fin 2) * 132 + 1 * (y 0).val = (y 0).val; omega
  | ⟨1, _⟩ => show win0_1.index t (1 : Fin 2) * 128 + 1 * (y 1).val = (y 1).val; omega

/-- The bias's block at every point is the whole bias row. -/
theorem gate_bias_block (c : Dev nD) (t : Fin cfg0.N) : iblk0 V c 2 t = V c main_v36 := by
  unfold iblk0
  obtain ⟨-, -, -, -, e4, e5, -, -⟩ := gate_block_indices t
  funext y
  show V c main_v36 (((cfg0.win 2).blk t).view.emb y) = V c main_v36 y
  refine congrArg (V c main_v36) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Row p of the design matrix's block at point t is the row of the design matrix that row p of the output's block
    at t lies on. -/
theorem gate_rows_block (c : Dev nD) (t : Fin cfg0.N) (p : Fin 4000) (q : Fin 128) (k : Fin 132) :
    iblk0 V c 0 t (ix2 p k) = V c main_v35 (ix2 ((((cfg0.win 3).blk t).view.emb (ix2 p q)) 0) k) := by
  unfold iblk0
  obtain ⟨e0, e1, -, -, -, -, e6, -⟩ := gate_block_indices t
  show V c main_v35 (((cfg0.win 0).blk t).view.emb (ix2 p k)) = V c main_v35 (ix2 ((((cfg0.win 3).blk t).view.emb (ix2 p q)) 0) k)
  refine congrArg (V c main_v35) (funext fun a => Fin.ext ?_)
  match a with
  | ⟨0, _⟩ => show win0_0.index t (0 : Fin 2) * 4000 + 1 * p.val = win0_3.index t (0 : Fin 2) * 4000 + 1 * p.val; omega
  | ⟨1, _⟩ => show win0_0.index t (1 : Fin 2) * 132 + 1 * k.val = k.val; omega

/-- The column of an entry of the output's block is its column in the output array. -/
theorem gate_out_col (t : Fin cfg0.N) (p : Fin 4000) (q : Fin 128) : (((cfg0.win 3).blk t).view.emb (ix2 p q)) 1 = q := by
  obtain ⟨-, -, -, -, -, -, -, e7⟩ := gate_block_indices t
  apply Fin.ext
  show win0_3.index t (1 : Fin 2) * 128 + 1 * q.val = q.val
  omega

/-! ## One block of the output -/

/-- The body's value on a block x0 whose row p is row (i 0) of X, on all of W and all of b, at entry (p, q), where
    q is the column (i 1): the gate layer of X, W, b at i. -/
theorem gate_entry (X : FVec Ideal ⟨2, ![160000, 132]⟩ .f32) (W : FVec Ideal ⟨2, ![132, 128]⟩ .f32)
    (B : FVec Ideal ⟨2, ![1, 128]⟩ .f32) (x0 : Vec Ideal S4000x132 .f32) (p : Fin 4000) (q : Fin 128)
    (i : (⟨2, ![160000, 128]⟩ : Shape).Idx) (hrow : ∀ k : Fin 132, x0 (ix2 p k) = X (ix2 (i 0) k))
    (hcol : i 1 = q) :
    k0_pay1 (F := Ideal) x0 W B (ix2 p q) = Cert.GruCell.gate X W B i := by
  rw [gate_payload_apply]
  unfold Cert.GruCell.gate Cert.GruCell.affine
  rw [hcol]
  refine congrArg Ideal.logistic (congrArg₂ (· + ·) (Finset.sum_congr rfl fun k _ => ?_) rfl)
  rw [hrow k]

/-- The body's value on the blocks of point t, entry by entry of the output's block. -/
theorem gate_block_entry (c : Dev nD) (t : Fin cfg0.N) (j : S4000x128.Idx) :
    k0_pay1 (F := Ideal) (iblk0 V c 0 t) (V c main_v2) (V c main_v36) j
      = Cert.GruCell.gate (V c main_v35) (V c main_v2) (V c main_v36) (((cfg0.win 3).blk t).view.emb j) := by
  obtain ⟨p, q, rfl⟩ : ∃ (p : Fin 4000) (q : Fin 128), j = ix2 p q := ⟨j 0, j 1, eq_ix2 j⟩
  exact gate_entry (V c main_v35) (V c main_v2) (V c main_v36) (iblk0 V c 0 t) p q (((cfg0.win 3).blk t).view.emb (ix2 p q))
    (gate_rows_block V c t p q) (gate_out_col t p q)

/-- What point t writes back is block t of the gate layer of the arrays as the region finds them. -/
theorem gate_block (c : Dev nD) (t : Fin cfg0.N) :
    (dat0 (F := Ideal) V c).flushed 3 t
      = ((cfg0.win 3).blk t).view.read (Elt Ideal) (Cert.GruCell.gate (V c main_v35) (V c main_v2) (V c main_v36)) := by
  show (cfg0.win 3).cut (grid0.coords t) ((dat0 V c).after 3 t) = _
  rw [after0_3]
  unfold out0_3
  rw [View.canon_unit_zero gate_origin]
  simp only [View.ld_unit_zero (S := S4000x132) gate_origin, View.ld_unit_zero (S := S132x128) gate_origin,
    View.ld_unit_zero (S := S1x128) gate_origin]
  rw [gate_weights_block, gate_bias_block]
  funext j
  exact gate_block_entry V c t j

/-! ## The whole output -/

/-- An entry of the output array is in point t's block iff each coordinate is in the block's range on its axis. -/
theorem gate_mem_block (t : Fin cfg0.N) (i : S160000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v37).slice (win0_3.rect t)).set ↔ _
  rw [View.set_slice_whole, Rect.mem_set_unit]
  exact Iff.rfl

/-- Every row of the output lies in the block of the point numbered by its quotient by 4000. -/
theorem gate_rows_covered (i : S160000x128.Idx) :
    ∃ t : Fin cfg0.N, (cfg0.win 3).flush t = true ∧ i ∈ ((cfg0.win 3).blk t).view.set := by
  have hi0 : (i 0).val < 160000 := (i 0).isLt
  have hi1 : (i 1).val < 128 := (i 1).isLt
  have hN : cfg0.N = 40 := N_0
  refine ⟨⟨(i 0).val / 4000, by omega⟩, flush0_3 _, ?_⟩
  rw [gate_mem_block]
  obtain ⟨-, -, -, -, -, -, e6, e7⟩ := gate_block_indices ⟨(i 0).val / 4000, by omega⟩
  intro a
  match a with
  | ⟨0, _⟩ =>
    show win0_3.index ⟨(i 0).val / 4000, _⟩ (0 : Fin 2) * 4000 ≤ (i 0).val ∧ (i 0).val < win0_3.index ⟨(i 0).val / 4000, _⟩ (0 : Fin 2) * 4000 + 4000
    rw [e6]; show (i 0).val / 4000 * 4000 ≤ (i 0).val ∧ (i 0).val < (i 0).val / 4000 * 4000 + 4000; omega
  | ⟨1, _⟩ =>
    show win0_3.index ⟨(i 0).val / 4000, _⟩ (1 : Fin 2) * 128 ≤ (i 1).val ∧ (i 1).val < win0_3.index ⟨(i 0).val / 4000, _⟩ (1 : Fin 2) * 128 + 128
    rw [e7]; omega

/-- THE OUTPUT ARRAY after the region: the gate layer of the design matrix, the weights and the bias as the region
    finds them. -/
theorem gate_array (c : Dev nD) :
    (dat0 (F := Ideal) V c).arrAt 3 cfg0.N = Cert.GruCell.gate (V c main_v35) (V c main_v2) (V c main_v36) :=
  (dat0 (F := Ideal) V c).arrAt_eq_of_cover 3 (Cert.GruCell.gate (V c main_v35) (V c main_v2) (V c main_v36))
    (fun t _ => gate_block V c t) gate_rows_covered

end Cert.KernelIdeal.Regions

end
-- ==== Proof.RegionGated.lean ====
/-
  The reset gate applied to the state, from column blocks to the whole array.

  The region walks twenty grid points. At point t each of its three windows is the column block
  [32000 t, 32000 t + 32000) of a 16 × 640000 array, all sixteen rows; the body multiplies the two blocks it
  loaded entry by entry and stores the product through the third. Since the three windows name the same
  rectangle, block t of the product array r · h is the product of block t of r and block t of h; and since
  column j lies in block j / 32000, the twenty blocks tile the array. So the output array ends holding r · h.
-/
import proofs.«159687_j90202903150932_1_alg».proof.Proof.Gen.KernelIdeal.Frame
import proofs.«159687_j90202903150932_1_alg».proof.Proof.Spec
import Idealize.ShloMosaic.Lib.ValueIdx
import Idealize.ShloMosaic.Lib.Pipeline.Value

set_option maxRecDepth 16384

noncomputable section

namespace Cert.KernelIdeal.Regions

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a store through the whole block, as a constant function. -/
theorem gated_zero_offsets : (![0, 0] : Fin 2 → Nat) = fun _ => 0 := funext fun a => by fin_cases a <;> rfl

/-- At grid point t every window sits on row block 0 and on column block t. -/
theorem gated_block_index : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- The body's payload is the entrywise product of its two loaded blocks. -/
theorem gated_payload (x0 x1 : Vec Ideal S16x32000 .f32) : k1_pay1 x0 x1 = mulf x0 x1 := by
  unfold k1_pay1
  simp only [shapeCast_self]

/-- Column block t of the product r · h is the product of column block t of r and column block t of h:
    the three windows name the same rectangle of the 16 × 640000 array. -/
theorem gated_block (t : Fin cfg1.N) (r h : FVec Ideal S16x640000 .f32) (j : S16x32000.Idx) :
    r (((cfg1.win 0).blk t).view.emb j) * h (((cfg1.win 1).blk t).view.emb j)
      = Cert.GruCell.gated r h (((cfg1.win 2).blk t).view.emb j) := by
  obtain ⟨r0, c0, r1, c1, r2, c2⟩ := gated_block_index t
  have hleft : ((cfg1.win 0).blk t).view.emb j = ((cfg1.win 2).blk t).view.emb j := by
    funext a; apply Fin.ext
    match a with
    | ⟨0, _⟩ => show win1_0.index t (0 : Fin 2) * 16 + 1 * (j 0).val = win1_2.index t (0 : Fin 2) * 16 + 1 * (j 0).val; omega
    | ⟨1, _⟩ => show win1_0.index t (1 : Fin 2) * 32000 + 1 * (j 1).val = win1_2.index t (1 : Fin 2) * 32000 + 1 * (j 1).val; omega
  have hright : ((cfg1.win 1).blk t).view.emb j = ((cfg1.win 2).blk t).view.emb j := by
    funext a; apply Fin.ext
    match a with
    | ⟨0, _⟩ => show win1_1.index t (0 : Fin 2) * 16 + 1 * (j 0).val = win1_2.index t (0 : Fin 2) * 16 + 1 * (j 0).val; omega
    | ⟨1, _⟩ => show win1_1.index t (1 : Fin 2) * 32000 + 1 * (j 1).val = win1_2.index t (1 : Fin 2) * 32000 + 1 * (j 1).val; omega
  rw [hleft, hright]
  rfl

/-- WHAT POINT t WRITES BACK: column block t of the product of the two arrays as the region finds them. -/
theorem gated_flushed (c : Dev nD) (t : Fin cfg1.N) :
    (dat1 V c).flushed 2 t
      = ((cfg1.win 2).blk t).view.read (Elt Ideal) (Cert.GruCell.gated (V c main_v40) (V c main_arg1)) := by
  show (cfg1.win 2).cut (grid1.coords t) ((dat1 V c).after 2 t) = _
  rw [after1_2]
  unfold out1_2
  rw [View.canon_unit_zero gated_zero_offsets]
  simp only [View.ld_unit_zero (S := S16x32000) gated_zero_offsets]
  rw [gated_payload]
  funext j
  exact gated_block t (V c main_v40) (V c main_arg1) j

/-- An index of the array lies in the block of point t iff, on each axis, its coordinate lies in the block's range. -/
theorem gated_mem_block (t : Fin cfg1.N) (i : S16x640000.Idx) :
    i ∈ ((cfg1.win 2).blk t).view.set
      ↔ ∀ a : Fin 2, win1_2.index t a * S16x32000.size a ≤ (i a).val
          ∧ (i a).val < win1_2.index t a * S16x32000.size a + S16x32000.size a := by
  show i ∈ ((View.whole main_v43).slice (win1_2.rect t)).set ↔ _
  rw [View.set_slice_whole, Rect.mem_set_unit]
  exact Iff.rfl

/-- The twenty column blocks tile the array: column j lies in block j / 32000, and every row lies in row block 0. -/
theorem gated_cover (i : S16x640000.Idx) :
    ∃ t : Fin cfg1.N, (cfg1.win 2).flush t = true ∧ i ∈ ((cfg1.win 2).blk t).view.set := by
  have hrow : (i 0).val < 16 := (i 0).isLt
  have hcol : (i 1).val < 640000 := (i 1).isLt
  have hpoint : (i 1).val / 32000 < cfg1.N := by
    show (i 1).val / 32000 < grid1.N
    rw [N_1]; omega
  obtain ⟨-, -, -, -, r2, c2⟩ := gated_block_index ⟨(i 1).val / 32000, hpoint⟩
  have c2' : win1_2.index ⟨(i 1).val / 32000, hpoint⟩ (1 : Fin 2) = (i 1).val / 32000 := c2
  refine ⟨⟨(i 1).val / 32000, hpoint⟩, flush1_2 _, ?_⟩
  rw [gated_mem_block]
  intro a
  match a with
  | ⟨0, _⟩ =>
    show win1_2.index ⟨(i 1).val / 32000, hpoint⟩ (0 : Fin 2) * 16 ≤ (i 0).val
      ∧ (i 0).val < win1_2.index ⟨(i 1).val / 32000, hpoint⟩ (0 : Fin 2) * 16 + 16
    omega
  | ⟨1, _⟩ =>
    show win1_2.index ⟨(i 1).val / 32000, hpoint⟩ (1 : Fin 2) * 32000 ≤ (i 1).val
      ∧ (i 1).val < win1_2.index ⟨(i 1).val / 32000, hpoint⟩ (1 : Fin 2) * 32000 + 32000
    omega

/-- THE ARRAY the region leaves in its output window: the entrywise product of the two arrays it read. -/
theorem gated_array (c : Dev nD) :
    (dat1 (F := Ideal) V c).arrAt 2 cfg1.N = Cert.GruCell.gated (V c main_v40) (V c main_arg1) :=
  (dat1 V c).arrAt_eq_of_cover 2 _ (fun t _ => gated_flushed V c t) gated_cover

end Cert.KernelIdeal.Regions

end
-- ==== Proof.RegionCand.lean ====
/-
  The candidate layer of the cell, from blocks of rows to the whole array.

  The region walks the 160000 rows of the design matrix X in 40 blocks of 4000 rows. At block t it holds rows
  4000 t … 4000 t + 3999 of X, the whole weight matrix W (132 by 64) and the one-row bias b, and leaves in rows
  4000 t … 4000 t + 3999 of the output the hyperbolic tangent of X · W + b. Here: the body's arithmetic read at one
  entry (a sum over the 132 columns, plus the bias of the column, through the hyperbolic tangent); each block read
  where it lies in its array; the block an output point writes back as a block of the candidate layer of the whole
  arrays; and, the 40 blocks covering every row, the output array as the candidate layer itself.
-/
import proofs.«159687_j90202903150932_1_alg».proof.Proof.Gen.KernelIdeal.Frame
import proofs.«159687_j90202903150932_1_alg».proof.Proof.Spec
import proofs.«159687_j90202903150932_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! ## The body's arithmetic at one entry -/

/-- The product's row index comes from the left operand's rows … -/
theorem cand_dot_lhs_row (i : S4000x64.Idx) (q : dot_S4000x132_S132x64_S4000x64_1_0_0_1_n_n.contr.Idx) :
    (dot_S4000x132_S132x64_S4000x64_1_0_0_1_n_n.lhsIdx i q 0).val = (i 0).val := by
  unfold DotDims.lhsIdx
  rw [dif_neg (show ¬(0 : Fin S4000x132.rank) ∈ dot_S4000x132_S132x64_S4000x64_1_0_0_1_n_n.lhsBatch by decide), dif_pos (show (0 : Fin S4000x132.rank) ∈ dot_S4000x132_S132x64_S4000x64_1_0_0_1_n_n.lhsNonContracting by decide)]
  rfl
/-- … the left operand's column is the summation index … -/
theorem cand_dot_lhs_col (i : S4000x64.Idx) (q : dot_S4000x132_S132x64_S4000x64_1_0_0_1_n_n.contr.Idx) :
    (dot_S4000x132_S132x64_S4000x64_1_0_0_1_n_n.lhsIdx i q 1).val = (q ⟨0, by decide⟩).val :=
  dot_S4000x132_S132x64_S4000x64_1_0_0_1_n_n.lhsIdx_val_of_single rfl i q
/-- … which is also the right operand's row … -/
theorem cand_dot_rhs_row (i : S4000x64.Idx) (q : dot_S4000x132_S132x64_S4000x64_1_0_0_1_n_n.contr.Idx) :
    (dot_S4000x132_S132x64_S4000x64_1_0_0_1_n_n.rhsIdx i q 0).val = (q ⟨0, by decide⟩).val :=
  dot_S4000x132_S132x64_S4000x64_1_0_0_1_n_n.rhsIdx_val_of_single rfl i q
/-- … and the product's column index comes from the right operand's columns. -/
theorem cand_dot_rhs_col (i : S4000x64.Idx) (q : dot_S4000x132_S132x64_S4000x64_1_0_0_1_n_n.contr.Idx) :
    (dot_S4000x132_S132x64_S4000x64_1_0_0_1_n_n.rhsIdx i q 1).val = (i 1).val := by
  unfold DotDims.rhsIdx
  rw [dif_neg (show ¬(1 : Fin S132x64.rank) ∈ dot_S4000x132_S132x64_S4000x64_1_0_0_1_n_n.rhsBatch by decide), dif_pos (show (1 : Fin S132x64.rank) ∈ dot_S4000x132_S132x64_S4000x64_1_0_0_1_n_n.rhsNonContracting by decide)]
  rfl

/-- The one-row bias spread over the 4000 rows reads, at (p, q), the bias of column q. -/
theorem cand_bias_apply (x2 : Vec Ideal S1x64 .f32) (p : Fin 4000) (q : Fin 64) :
    broadcastTo S4000x64 x2 broadcasts_S1x64_S4000x64 (ix2 p q) = x2 (ix2 (0 : Fin 1) q) := by
  refine broadcastTo_apply x2 broadcasts_S1x64_S4000x64 (ix2 p q) (ix2 (0 : Fin 1) q) fun a => ?_
  match a with
  | ⟨0, _⟩ => rfl
  | ⟨1, _⟩ => rfl

/-- The body's value at entry (p, q) of a block: the hyperbolic tangent of the sum over k of x0 (p, k) · x1 (k, q),
    plus the bias x2 (0, q). The narrowing of the two operands before the product is the identity on extended reals. -/
theorem cand_payload_apply (x0 : Vec Ideal S4000x132 .f32) (x1 : Vec Ideal S132x64 .f32) (x2 : Vec Ideal S1x64 .f32)
    (p : Fin 4000) (q : Fin 64) :
    k2_pay1 (F := Ideal) x0 x1 x2 (ix2 p q)
      = Ideal.tanh ((∑ k : Fin 132, x0 (ix2 p k) * x1 (ix2 k q)) + x2 (ix2 (0 : Fin 1) q)) := by
  unfold k2_pay1
  refine congrArg Ideal.tanh ?_
  refine congrArg₂ (· + ·) ?_ ?_
  · refine (Cert.Lib.matmul_plain_apply dot_S4000x132_S132x64_S4000x64_1_0_0_1_n_n rfl rfl cand_dot_lhs_row cand_dot_lhs_col cand_dot_rhs_row
      cand_dot_rhs_col none _ _ p q).trans ?_
    refine Finset.sum_congr rfl fun k _ => ?_
    exact congrArg₂ (· * ·) (congrFun (shapeCast_self x0 shapeCasts_S4000x132_S4000x132) (ix2 p k))
      (congrFun (shapeCast_self x1 shapeCasts_S132x64_S132x64) (ix2 k q))
  · refine (cand_bias_apply _ p q).trans ?_
    rw [shapeCast_self, shapeCast_self]

/-! ## Where each block lies in its array -/

variable (V : (c : Dev nD) → (b : Ref sig .tc) → Buf (Elt Ideal) ((c : Thread nD τ).loc b))

theorem cand_origin : (![0, 0] : Fin 2 → Nat) = fun _ => 0 := funext fun a => by fin_cases a <;> rfl

/-- The block indices, decided over the 40 points: the design matrix and the output move down one block of rows per
    point; the weights and the bias stay where they are. -/
theorem cand_block_indices : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- The weights' block at every point is the whole weight matrix. -/
theorem cand_weights_block (c : Dev nD) (t : Fin cfg2.N) : iblk2 V c 1 t = V c main_v8 := by
  unfold iblk2
  obtain ⟨-, -, e2, e3, -, -, -, -⟩ := cand_block_indices t
  funext y
  show V c main_v8 (((cfg2.win 1).blk t).view.emb y) = V c main_v8 y
  refine congrArg (V c main_v8) (funext fun a => Fin.ext ?_)
  match a with
  | ⟨0, _⟩ => show win2_1.index t (0 : Fin 2) * 132 + 1 * (y 0).val = (y 0).val; omega
  | ⟨1, _⟩ => show win2_1.index t (1 : Fin 2) * 64 + 1 * (y 1).val = (y 1).val; omega

/-- The bias's block at every point is the whole bias row. -/
theorem cand_bias_block (c : Dev nD) (t : Fin cfg2.N) : iblk2 V c 2 t = V c main_v67 := by
  unfold iblk2
  obtain ⟨-, -, -, -, e4, e5, -, -⟩ := cand_block_indices t
  funext y
  show V c main_v67 (((cfg2.win 2).blk t).view.emb y) = V c main_v67 y
  refine congrArg (V c main_v67) (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Row p of the design matrix's block at point t is the row of the design matrix that row p of the output's block
    at t lies on. -/
theorem cand_rows_block (c : Dev nD) (t : Fin cfg2.N) (p : Fin 4000) (q : Fin 64) (k : Fin 132) :
    iblk2 V c 0 t (ix2 p k) = V c main_v66 (ix2 ((((cfg2.win 3).blk t).view.emb (ix2 p q)) 0) k) := by
  unfold iblk2
  obtain ⟨e0, e1, -, -, -, -, e6, -⟩ := cand_block_indices t
  show V c main_v66 (((cfg2.win 0).blk t).view.emb (ix2 p k)) = V c main_v66 (ix2 ((((cfg2.win 3).blk t).view.emb (ix2 p q)) 0) k)
  refine congrArg (V c main_v66) (funext fun a => Fin.ext ?_)
  match a with
  | ⟨0, _⟩ => show win2_0.index t (0 : Fin 2) * 4000 + 1 * p.val = win2_3.index t (0 : Fin 2) * 4000 + 1 * p.val; omega
  | ⟨1, _⟩ => show win2_0.index t (1 : Fin 2) * 132 + 1 * k.val = k.val; omega

/-- The column of an entry of the output's block is its column in the output array. -/
theorem cand_out_col (t : Fin cfg2.N) (p : Fin 4000) (q : Fin 64) : (((cfg2.win 3).blk t).view.emb (ix2 p q)) 1 = q := by
  obtain ⟨-, -, -, -, -, -, -, e7⟩ := cand_block_indices t
  apply Fin.ext
  show win2_3.index t (1 : Fin 2) * 64 + 1 * q.val = q.val
  omega

/-! ## One block of the output -/

/-- The body's value on a block x0 whose row p is row (i 0) of X, on all of W and all of b, at entry (p, q), where
    q is the column (i 1): the candidate layer of X, W, b at i. -/
theorem cand_entry (X : FVec Ideal ⟨2, ![160000, 132]⟩ .f32) (W : FVec Ideal ⟨2, ![132, 64]⟩ .f32)
    (B : FVec Ideal ⟨2, ![1, 64]⟩ .f32) (x0 : Vec Ideal S4000x132 .f32) (p : Fin 4000) (q : Fin 64)
    (i : (⟨2, ![160000, 64]⟩ : Shape).Idx) (hrow : ∀ k : Fin 132, x0 (ix2 p k) = X (ix2 (i 0) k))
    (hcol : i 1 = q) :
    k2_pay1 (F := Ideal) x0 W B (ix2 p q) = Cert.GruCell.cand X W B i := by
  rw [cand_payload_apply]
  unfold Cert.GruCell.cand Cert.GruCell.affine
  rw [hcol]
  refine congrArg Ideal.tanh (congrArg₂ (· + ·) (Finset.sum_congr rfl fun k _ => ?_) rfl)
  rw [hrow k]

/-- The body's value on the blocks of point t, entry by entry of the output's block. -/
theorem cand_block_entry (c : Dev nD) (t : Fin cfg2.N) (j : S4000x64.Idx) :
    k2_pay1 (F := Ideal) (iblk2 V c 0 t) (V c main_v8) (V c main_v67) j
      = Cert.GruCell.cand (V c main_v66) (V c main_v8) (V c main_v67) (((cfg2.win 3).blk t).view.emb j) := by
  obtain ⟨p, q, rfl⟩ : ∃ (p : Fin 4000) (q : Fin 64), j = ix2 p q := ⟨j 0, j 1, eq_ix2 j⟩
  exact cand_entry (V c main_v66) (V c main_v8) (V c main_v67) (iblk2 V c 0 t) p q (((cfg2.win 3).blk t).view.emb (ix2 p q))
    (cand_rows_block V c t p q) (cand_out_col t p q)

/-- What point t writes back is block t of the candidate layer of the arrays as the region finds them. -/
theorem cand_block (c : Dev nD) (t : Fin cfg2.N) :
    (dat2 (F := Ideal) V c).flushed 3 t
      = ((cfg2.win 3).blk t).view.read (Elt Ideal) (Cert.GruCell.cand (V c main_v66) (V c main_v8) (V c main_v67)) := by
  show (cfg2.win 3).cut (grid2.coords t) ((dat2 V c).after 3 t) = _
  rw [after2_3]
  unfold out2_3
  rw [View.canon_unit_zero cand_origin]
  simp only [View.ld_unit_zero (S := S4000x132) cand_origin, View.ld_unit_zero (S := S132x64) cand_origin,
    View.ld_unit_zero (S := S1x64) cand_origin]
  rw [cand_weights_block, cand_bias_block]
  funext j
  exact cand_block_entry V c t j

/-! ## The whole output -/

/-- An entry of the output array is in point t's block iff each coordinate is in the block's range on its axis. -/
theorem cand_mem_block (t : Fin cfg2.N) (i : S160000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v68).slice (win2_3.rect t)).set ↔ _
  rw [View.set_slice_whole, Rect.mem_set_unit]
  exact Iff.rfl

/-- Every row of the output lies in the block of the point numbered by its quotient by 4000. -/
theorem cand_rows_covered (i : S160000x64.Idx) :
    ∃ t : Fin cfg2.N, (cfg2.win 3).flush t = true ∧ i ∈ ((cfg2.win 3).blk t).view.set := by
  have hi0 : (i 0).val < 160000 := (i 0).isLt
  have hi1 : (i 1).val < 64 := (i 1).isLt
  have hN : cfg2.N = 40 := N_2
  refine ⟨⟨(i 0).val / 4000, by omega⟩, flush2_3 _, ?_⟩
  rw [cand_mem_block]
  obtain ⟨-, -, -, -, -, -, e6, e7⟩ := cand_block_indices ⟨(i 0).val / 4000, by omega⟩
  intro a
  match a with
  | ⟨0, _⟩ =>
    show win2_3.index ⟨(i 0).val / 4000, _⟩ (0 : Fin 2) * 4000 ≤ (i 0).val ∧ (i 0).val < win2_3.index ⟨(i 0).val / 4000, _⟩ (0 : Fin 2) * 4000 + 4000
    rw [e6]; show (i 0).val / 4000 * 4000 ≤ (i 0).val ∧ (i 0).val < (i 0).val / 4000 * 4000 + 4000; omega
  | ⟨1, _⟩ =>
    show win2_3.index ⟨(i 0).val / 4000, _⟩ (1 : Fin 2) * 64 ≤ (i 1).val ∧ (i 1).val < win2_3.index ⟨(i 0).val / 4000, _⟩ (1 : Fin 2) * 64 + 64
    rw [e7]; omega

/-- THE OUTPUT ARRAY after the region: the candidate layer of the design matrix, the weights and the bias as the region
    finds them. -/
theorem cand_array (c : Dev nD) :
    (dat2 (F := Ideal) V c).arrAt 3 cfg2.N = Cert.GruCell.cand (V c main_v66) (V c main_v8) (V c main_v67) :=
  (dat2 (F := Ideal) V c).arrAt_eq_of_cover 3 (Cert.GruCell.cand (V c main_v66) (V c main_v8) (V c main_v67))
    (fun t _ => cand_block V c t) cand_rows_covered

end Cert.KernelIdeal.Regions

end
-- ==== Proof.RegionBlend.lean ====
/-
  The new state of the cell, from column blocks to the whole array.

  The region walks twenty grid points. At point t each of its four windows is the column block
  [32000 t, 32000 t + 32000) of a 16 × 640000 array, all sixteen rows; the body loads the update gate u, the
  old state h and the candidate c through the first three and stores u · h + (1 − u) · c, entry by entry,
  through the fourth, the 1 being the single-precision pattern of one, which is the extended real one. Since
  the four windows name the same rectangle, block t of the blended array is the blend of block t of u, of h
  and of c; and since column j lies in block j / 32000, the twenty blocks tile the array. So the output array
  ends holding u · h + (1 − u) · c.
-/
import proofs.«159687_j90202903150932_1_alg».proof.Proof.Gen.KernelIdeal.Frame
import proofs.«159687_j90202903150932_1_alg».proof.Proof.Spec
import Idealize.ShloMosaic.Lib.ValueIdx
import Idealize.ShloMosaic.Lib.Pipeline.Value
import Idealize.ShloMosaic.Lib.IdealHost

set_option maxRecDepth 16384

noncomputable section

namespace Cert.KernelIdeal.Regions

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a store through the whole block, as a constant function. -/
theorem blend_zero_offsets : (![0, 0] : Fin 2 → Nat) = fun _ => 0 := funext fun a => by fin_cases a <;> rfl

/-- At grid point t every window sits on row block 0 and on column block t. -/
theorem blend_block_index : ∀ t : Fin cfg3.N,
    win3_0.index t (0 : Fin 2) = 0 ∧ win3_0.index t (1 : Fin 2) = t.val
    ∧ win3_1.index t (0 : Fin 2) = 0 ∧ win3_1.index t (1 : Fin 2) = t.val
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

/-- The body's payload at an entry: u · h + (1 − u) · c of its three loaded blocks, the constant the
    single-precision pattern of one. -/
theorem blend_payload (x0 x1 x2 : FVec Ideal S16x32000 .f32) (j : S16x32000.Idx) :
    k3_pay1 x0 x1 x2 j = x0 j * x1 j + (1 - x0 j) * x2 j := by
  unfold k3_pay1
  simp only [shapeCast_self]
  show x0 j * x1 j + (Ideal.ofBits .f32 0x3F800000#32 - x0 j) * x2 j = _
  rw [Ideal.ofBits_one_f32]

/-- Column block t of the blend u · h + (1 − u) · c is the blend of column block t of u, of h and of c:
    the four windows name the same rectangle of the 16 × 640000 array. -/
theorem blend_block (t : Fin cfg3.N) (u h k : FVec Ideal S16x640000 .f32) (j : S16x32000.Idx) :
    u (((cfg3.win 0).blk t).view.emb j) * h (((cfg3.win 1).blk t).view.emb j)
        + (1 - u (((cfg3.win 0).blk t).view.emb j)) * k (((cfg3.win 2).blk t).view.emb j)
      = Cert.GruCell.blend u h k (((cfg3.win 3).blk t).view.emb j) := by
  obtain ⟨r0, c0, r1, c1, r2, c2, r3, c3⟩ := blend_block_index t
  have hgate : ((cfg3.win 0).blk t).view.emb j = ((cfg3.win 3).blk t).view.emb j := by
    funext a; apply Fin.ext
    match a with
    | ⟨0, _⟩ => show win3_0.index t (0 : Fin 2) * 16 + 1 * (j 0).val = win3_3.index t (0 : Fin 2) * 16 + 1 * (j 0).val; omega
    | ⟨1, _⟩ => show win3_0.index t (1 : Fin 2) * 32000 + 1 * (j 1).val = win3_3.index t (1 : Fin 2) * 32000 + 1 * (j 1).val; omega
  have hstate : ((cfg3.win 1).blk t).view.emb j = ((cfg3.win 3).blk t).view.emb j := by
    funext a; apply Fin.ext
    match a with
    | ⟨0, _⟩ => show win3_1.index t (0 : Fin 2) * 16 + 1 * (j 0).val = win3_3.index t (0 : Fin 2) * 16 + 1 * (j 0).val; omega
    | ⟨1, _⟩ => show win3_1.index t (1 : Fin 2) * 32000 + 1 * (j 1).val = win3_3.index t (1 : Fin 2) * 32000 + 1 * (j 1).val; omega
  have hcand : ((cfg3.win 2).blk t).view.emb j = ((cfg3.win 3).blk t).view.emb j := by
    funext a; apply Fin.ext
    match a with
    | ⟨0, _⟩ => show win3_2.index t (0 : Fin 2) * 16 + 1 * (j 0).val = win3_3.index t (0 : Fin 2) * 16 + 1 * (j 0).val; omega
    | ⟨1, _⟩ => show win3_2.index t (1 : Fin 2) * 32000 + 1 * (j 1).val = win3_3.index t (1 : Fin 2) * 32000 + 1 * (j 1).val; omega
  rw [hgate, hstate, hcand]
  rfl

/-- WHAT POINT t WRITES BACK: column block t of the blend of the three arrays as the region finds them. -/
theorem blend_flushed (c : Dev nD) (t : Fin cfg3.N) :
    (dat3 V c).flushed 3 t
      = ((cfg3.win 3).blk t).view.read (Elt Ideal)
          (Cert.GruCell.blend (V c main_v42) (V c main_arg1) (V c main_v69)) := by
  show (cfg3.win 3).cut (grid3.coords t) ((dat3 V c).after 3 t) = _
  rw [after3_3]
  unfold out3_3
  rw [View.canon_unit_zero blend_zero_offsets]
  simp only [View.ld_unit_zero (S := S16x32000) blend_zero_offsets]
  funext j
  refine (blend_payload _ _ _ j).trans ?_
  exact blend_block t (V c main_v42) (V c main_arg1) (V c main_v69) j

/-- An index of the array lies in the block of point t iff, on each axis, its coordinate lies in the block's range. -/
theorem blend_mem_block (t : Fin cfg3.N) (i : S16x640000.Idx) :
    i ∈ ((cfg3.win 3).blk t).view.set
      ↔ ∀ a : Fin 2, win3_3.index t a * S16x32000.size a ≤ (i a).val
          ∧ (i a).val < win3_3.index t a * S16x32000.size a + S16x32000.size a := by
  show i ∈ ((View.whole main_v70).slice (win3_3.rect t)).set ↔ _
  rw [View.set_slice_whole, Rect.mem_set_unit]
  exact Iff.rfl

/-- The twenty column blocks tile the array: column j lies in block j / 32000, and every row lies in row block 0. -/
theorem blend_cover (i : S16x640000.Idx) :
    ∃ t : Fin cfg3.N, (cfg3.win 3).flush t = true ∧ i ∈ ((cfg3.win 3).blk t).view.set := by
  have hrow : (i 0).val < 16 := (i 0).isLt
  have hcol : (i 1).val < 640000 := (i 1).isLt
  have hpoint : (i 1).val / 32000 < cfg3.N := by
    show (i 1).val / 32000 < grid3.N
    rw [N_3]; omega
  obtain ⟨-, -, -, -, -, -, r3, c3⟩ := blend_block_index ⟨(i 1).val / 32000, hpoint⟩
  have c3' : win3_3.index ⟨(i 1).val / 32000, hpoint⟩ (1 : Fin 2) = (i 1).val / 32000 := c3
  refine ⟨⟨(i 1).val / 32000, hpoint⟩, flush3_3 _, ?_⟩
  rw [blend_mem_block]
  intro a
  match a with
  | ⟨0, _⟩ =>
    show win3_3.index ⟨(i 1).val / 32000, hpoint⟩ (0 : Fin 2) * 16 ≤ (i 0).val
      ∧ (i 0).val < win3_3.index ⟨(i 1).val / 32000, hpoint⟩ (0 : Fin 2) * 16 + 16
    omega
  | ⟨1, _⟩ =>
    show win3_3.index ⟨(i 1).val / 32000, hpoint⟩ (1 : Fin 2) * 32000 ≤ (i 1).val
      ∧ (i 1).val < win3_3.index ⟨(i 1).val / 32000, hpoint⟩ (1 : Fin 2) * 32000 + 32000
    omega

/-- THE ARRAY the region leaves in its output window: the blend of the three arrays it read. -/
theorem blend_array (c : Dev nD) :
    (dat3 (F := Ideal) V c).arrAt 3 cfg3.N
      = Cert.GruCell.blend (V c main_v42) (V c main_arg1) (V c main_v69) :=
  (dat3 V c).arrAt_eq_of_cover 3 _ (fun t _ => blend_flushed V c t) blend_cover

end Cert.KernelIdeal.Regions

end
-- ==== Proof.KValue.lean ====
/-
  The kernel program's result array, read back through its eight segments (four stretches of host operations, four
  kernel calls): what the last kernel call leaves is the blend of the update gate, the launch state and the candidate; each of
  these is what an earlier segment left, down to the seventeen arguments. Stage by stage the values are the reference
  program's own stage functions: the gate layer's array reshaped is the host's 1 / (1 + exp(−·)) array, the candidate layer's
  array reshaped is the host's tanh array, the blend is the host's sum of products.
-/
import proofs.«159687_j90202903150932_1_alg».proof.Proof.Gen.KernelIdeal.Frame
import proofs.«159687_j90202903150932_1_alg».proof.Proof.KHost
import proofs.«159687_j90202903150932_1_alg».proof.Proof.Spec
import proofs.«159687_j90202903150932_1_alg».proof.Proof.Stages
import proofs.«159687_j90202903150932_1_alg».proof.Proof.RegionGate
import proofs.«159687_j90202903150932_1_alg».proof.Proof.RegionGated
import proofs.«159687_j90202903150932_1_alg».proof.Proof.RegionCand
import proofs.«159687_j90202903150932_1_alg».proof.Proof.RegionBlend

set_option maxRecDepth 16384

noncomputable section

namespace Cert.KernelIdeal.CellValue

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-! ## The stages' values, from the launch contents -/

/-- An argument's launch contents. -/
abbrev A (b : Ref sig .tc) : (Proc.devRef (τ := τ) .tc b).ty.Contents (Elt Ideal) := W0 m ρ c (Proc.devRef .tc b)

/-- The inputs as 16 × 10000 × 2. -/
abbrev inp : (⟨S16x10000x2, .f32⟩ : BufTy).Contents (Elt Ideal) := shapeCast _ (A m ρ c main_arg0) shapeCasts_S16x20000_S16x10000x2
/-- The gate layer's weights and bias, the candidate layer's weights and bias. -/
abbrev Wg : (⟨S132x128, .f32⟩ : BufTy).Contents (Elt Ideal) := Cert.ReferenceIdeal.Chain.weight (A m ρ c main_arg3) (A m ρ c main_arg4) (A m ρ c main_arg11)
abbrev Bg : (⟨S128, .f32⟩ : BufTy).Contents (Elt Ideal) := Cert.ReferenceIdeal.Chain.weight (A m ρ c main_arg5) (A m ρ c main_arg6) (A m ρ c main_arg12)
abbrev Wc : (⟨S132x64, .f32⟩ : BufTy).Contents (Elt Ideal) := Cert.ReferenceIdeal.Chain.weight (A m ρ c main_arg7) (A m ρ c main_arg8) (A m ρ c main_arg13)
abbrev Bc : (⟨S64, .f32⟩ : BufTy).Contents (Elt Ideal) := Cert.ReferenceIdeal.Chain.weight (A m ρ c main_arg9) (A m ρ c main_arg10) (A m ρ c main_arg14)
/-- The first design matrix, and the gate layer's array over it. -/
abbrev X1 : (⟨S160000x132, .f32⟩ : BufTy).Contents (Elt Ideal) := Cert.ReferenceIdeal.Chain.design (inp m ρ c) (A m ρ c main_arg1) (A m ρ c main_arg2) (A m ρ c main_arg15) (A m ρ c main_arg16)
abbrev G : (⟨S16x10000x128, .f32⟩ : BufTy).Contents (Elt Ideal) := Cert.ReferenceIdeal.Chain.gates (X1 m ρ c) (Wg m ρ c) (Bg m ρ c)
/-- The second design matrix: over the reset state. -/
abbrev X2 : (⟨S160000x132, .f32⟩ : BufTy).Contents (Elt Ideal) := Cert.ReferenceIdeal.Chain.design (inp m ρ c) (mulf (Cert.ReferenceIdeal.Chain.resetHalf (G m ρ c)) (A m ρ c main_arg1)) (A m ρ c main_arg2) (A m ρ c main_arg15) (A m ρ c main_arg16)

/-! ## After the first stretch -/

theorem l1_v35 : W1 m ρ c (Proc.devRef .tc main_v35) = X1 m ρ c := HostRead.ops0_v35 (W0 m ρ c)
theorem l1_v2 : W1 m ρ c (Proc.devRef .tc main_v2) = Wg m ρ c := HostRead.ops0_v2 (W0 m ρ c)
theorem l1_v36 : W1 m ρ c (Proc.devRef .tc main_v36) = shapeCast _ (Bg m ρ c) shapeCasts_S128_S1x128 := HostRead.ops0_v36 (W0 m ρ c)
theorem l1_v8 : W1 m ρ c (Proc.devRef .tc main_v8) = Wc m ρ c := HostRead.ops0_v8 (W0 m ρ c)
theorem l1_v11 : W1 m ρ c (Proc.devRef .tc main_v11) = Bc m ρ c := HostRead.ops0_v11 (W0 m ρ c)
theorem l1_v12 : W1 m ρ c (Proc.devRef .tc main_v12) = inp m ρ c := HostRead.ops0_v12 (W0 m ρ c)
theorem l1_arg1 : W1 m ρ c (Proc.devRef .tc main_arg1) = A m ρ c main_arg1 := HostRead.ops0_arg1 (W0 m ρ c)
theorem l1_arg2 : W1 m ρ c (Proc.devRef .tc main_arg2) = A m ρ c main_arg2 := HostRead.ops0_arg2 (W0 m ρ c)
theorem l1_arg15 : W1 m ρ c (Proc.devRef .tc main_arg15) = A m ρ c main_arg15 := HostRead.ops0_arg15 (W0 m ρ c)
theorem l1_arg16 : W1 m ρ c (Proc.devRef .tc main_arg16) = A m ρ c main_arg16 := HostRead.ops0_arg16 (W0 m ρ c)

/-! ## After the gate layer -/

/-- What the first kernel call leaves: the gate layer's array. -/
theorem l2_v37 : W2 m ρ c (Proc.devRef .tc main_v37) = Cert.GruCell.gate (X1 m ρ c) (Wg m ρ c) (shapeCast _ (Bg m ρ c) shapeCasts_S128_S1x128) := by
  refine (W2_arr m ρ c 3).trans ((Regions.gate_array (V1 m ρ) c).trans ?_)
  show Cert.GruCell.gate (W1 m ρ c (Proc.devRef .tc main_v35)) (W1 m ρ c (Proc.devRef .tc main_v2)) (W1 m ρ c (Proc.devRef .tc main_v36)) = _
  rw [l1_v35, l1_v2, l1_v36]
theorem k2_arg1 : W2 m ρ c (Proc.devRef .tc main_arg1) = W1 m ρ c (Proc.devRef .tc main_arg1) := W2_of_ne m ρ c main_arg1 (by decide)
theorem k2_arg2 : W2 m ρ c (Proc.devRef .tc main_arg2) = W1 m ρ c (Proc.devRef .tc main_arg2) := W2_of_ne m ρ c main_arg2 (by decide)
theorem k2_arg15 : W2 m ρ c (Proc.devRef .tc main_arg15) = W1 m ρ c (Proc.devRef .tc main_arg15) := W2_of_ne m ρ c main_arg15 (by decide)
theorem k2_arg16 : W2 m ρ c (Proc.devRef .tc main_arg16) = W1 m ρ c (Proc.devRef .tc main_arg16) := W2_of_ne m ρ c main_arg16 (by decide)
theorem k2_v8 : W2 m ρ c (Proc.devRef .tc main_v8) = W1 m ρ c (Proc.devRef .tc main_v8) := W2_of_ne m ρ c main_v8 (by decide)
theorem k2_v11 : W2 m ρ c (Proc.devRef .tc main_v11) = W1 m ρ c (Proc.devRef .tc main_v11) := W2_of_ne m ρ c main_v11 (by decide)
theorem k2_v12 : W2 m ρ c (Proc.devRef .tc main_v12) = W1 m ρ c (Proc.devRef .tc main_v12) := W2_of_ne m ρ c main_v12 (by decide)

/-! ## After the second stretch -/

theorem l3_v40 : W3 m ρ c (Proc.devRef .tc main_v40) = Cert.ReferenceIdeal.Chain.resetHalf (G m ρ c) := by
  refine (HostRead.ops1_v40 (W2 m ρ c)).trans ?_
  rw [l2_v37]
  exact congrArg Cert.ReferenceIdeal.Chain.resetHalf (Cert.ReferenceIdeal.Stages.gate_stage (X1 m ρ c) (Wg m ρ c) (Bg m ρ c) _ _)
theorem l3_v42 : W3 m ρ c (Proc.devRef .tc main_v42) = Cert.ReferenceIdeal.Chain.updateHalf (G m ρ c) := by
  refine (HostRead.ops1_v42 (W2 m ρ c)).trans ?_
  rw [l2_v37]
  exact congrArg Cert.ReferenceIdeal.Chain.updateHalf (Cert.ReferenceIdeal.Stages.gate_stage (X1 m ρ c) (Wg m ρ c) (Bg m ρ c) _ _)
theorem k3_arg1 : W3 m ρ c (Proc.devRef .tc main_arg1) = W2 m ρ c (Proc.devRef .tc main_arg1) := HostRead.ops1_arg1 (W2 m ρ c)
theorem k3_arg2 : W3 m ρ c (Proc.devRef .tc main_arg2) = W2 m ρ c (Proc.devRef .tc main_arg2) := HostRead.ops1_arg2 (W2 m ρ c)
theorem k3_arg15 : W3 m ρ c (Proc.devRef .tc main_arg15) = W2 m ρ c (Proc.devRef .tc main_arg15) := HostRead.ops1_arg15 (W2 m ρ c)
theorem k3_arg16 : W3 m ρ c (Proc.devRef .tc main_arg16) = W2 m ρ c (Proc.devRef .tc main_arg16) := HostRead.ops1_arg16 (W2 m ρ c)
theorem k3_v8 : W3 m ρ c (Proc.devRef .tc main_v8) = W2 m ρ c (Proc.devRef .tc main_v8) := HostRead.ops1_v8 (W2 m ρ c)
theorem k3_v11 : W3 m ρ c (Proc.devRef .tc main_v11) = W2 m ρ c (Proc.devRef .tc main_v11) := HostRead.ops1_v11 (W2 m ρ c)
theorem k3_v12 : W3 m ρ c (Proc.devRef .tc main_v12) = W2 m ρ c (Proc.devRef .tc main_v12) := HostRead.ops1_v12 (W2 m ρ c)
theorem l3_arg1 : W3 m ρ c (Proc.devRef .tc main_arg1) = A m ρ c main_arg1 := (k3_arg1 m ρ c).trans ((k2_arg1 m ρ c).trans (l1_arg1 m ρ c))

/-! ## After the reset product -/

/-- What the second kernel call leaves: the reset gate times the state. -/
theorem l4_v43 : W4 m ρ c (Proc.devRef .tc main_v43) = mulf (Cert.ReferenceIdeal.Chain.resetHalf (G m ρ c)) (A m ρ c main_arg1) := by
  refine (W4_arr m ρ c 2).trans ((Regions.gated_array (V3 m ρ) c).trans ?_)
  show Cert.GruCell.gated (W3 m ρ c (Proc.devRef .tc main_v40)) (W3 m ρ c (Proc.devRef .tc main_arg1)) = _
  rw [l3_v40, l3_arg1]
  rfl
/-- The state is an input of the second kernel call: it is left as it was. -/
theorem k4_arg1 : W4 m ρ c (Proc.devRef .tc main_arg1) = W3 m ρ c (Proc.devRef .tc main_arg1) :=
  (W4_arr m ρ c 1).trans (((dat1 (V3 m ρ) c).arrAt_in 1 rfl _).trans (A_eq1 (V3 m ρ) c 1))
theorem k4_arg2 : W4 m ρ c (Proc.devRef .tc main_arg2) = W3 m ρ c (Proc.devRef .tc main_arg2) := W4_of_ne m ρ c main_arg2 (by decide)
theorem k4_arg15 : W4 m ρ c (Proc.devRef .tc main_arg15) = W3 m ρ c (Proc.devRef .tc main_arg15) := W4_of_ne m ρ c main_arg15 (by decide)
theorem k4_arg16 : W4 m ρ c (Proc.devRef .tc main_arg16) = W3 m ρ c (Proc.devRef .tc main_arg16) := W4_of_ne m ρ c main_arg16 (by decide)
theorem k4_v8 : W4 m ρ c (Proc.devRef .tc main_v8) = W3 m ρ c (Proc.devRef .tc main_v8) := W4_of_ne m ρ c main_v8 (by decide)
theorem k4_v11 : W4 m ρ c (Proc.devRef .tc main_v11) = W3 m ρ c (Proc.devRef .tc main_v11) := W4_of_ne m ρ c main_v11 (by decide)
theorem k4_v12 : W4 m ρ c (Proc.devRef .tc main_v12) = W3 m ρ c (Proc.devRef .tc main_v12) := W4_of_ne m ρ c main_v12 (by decide)
theorem k4_v42 : W4 m ρ c (Proc.devRef .tc main_v42) = W3 m ρ c (Proc.devRef .tc main_v42) := W4_of_ne m ρ c main_v42 (by decide)
theorem l4_arg2 : W4 m ρ c (Proc.devRef .tc main_arg2) = A m ρ c main_arg2 := (k4_arg2 m ρ c).trans ((k3_arg2 m ρ c).trans ((k2_arg2 m ρ c).trans (l1_arg2 m ρ c)))
theorem l4_arg15 : W4 m ρ c (Proc.devRef .tc main_arg15) = A m ρ c main_arg15 := (k4_arg15 m ρ c).trans ((k3_arg15 m ρ c).trans ((k2_arg15 m ρ c).trans (l1_arg15 m ρ c)))
theorem l4_arg16 : W4 m ρ c (Proc.devRef .tc main_arg16) = A m ρ c main_arg16 := (k4_arg16 m ρ c).trans ((k3_arg16 m ρ c).trans ((k2_arg16 m ρ c).trans (l1_arg16 m ρ c)))
theorem l4_v12 : W4 m ρ c (Proc.devRef .tc main_v12) = inp m ρ c := (k4_v12 m ρ c).trans ((k3_v12 m ρ c).trans ((k2_v12 m ρ c).trans (l1_v12 m ρ c)))
theorem l4_v11 : W4 m ρ c (Proc.devRef .tc main_v11) = Bc m ρ c := (k4_v11 m ρ c).trans ((k3_v11 m ρ c).trans ((k2_v11 m ρ c).trans (l1_v11 m ρ c)))
theorem l4_v8 : W4 m ρ c (Proc.devRef .tc main_v8) = Wc m ρ c := (k4_v8 m ρ c).trans ((k3_v8 m ρ c).trans ((k2_v8 m ρ c).trans (l1_v8 m ρ c)))
theorem l4_v42 : W4 m ρ c (Proc.devRef .tc main_v42) = Cert.ReferenceIdeal.Chain.updateHalf (G m ρ c) := (k4_v42 m ρ c).trans (l3_v42 m ρ c)
theorem l4_arg1 : W4 m ρ c (Proc.devRef .tc main_arg1) = A m ρ c main_arg1 := (k4_arg1 m ρ c).trans (l3_arg1 m ρ c)

/-! ## After the third stretch -/

theorem l5_v66 : W5 m ρ c (Proc.devRef .tc main_v66) = X2 m ρ c := by
  refine (HostRead.ops2_v66 (W4 m ρ c)).trans ?_
  rw [l4_v12, l4_v43, l4_arg2, l4_arg15, l4_arg16]
theorem l5_v67 : W5 m ρ c (Proc.devRef .tc main_v67) = shapeCast _ (Bc m ρ c) shapeCasts_S64_S1x64 := by
  refine (HostRead.ops2_v67 (W4 m ρ c)).trans ?_
  rw [l4_v11]
theorem k5_v8 : W5 m ρ c (Proc.devRef .tc main_v8) = W4 m ρ c (Proc.devRef .tc main_v8) := HostRead.ops2_v8 (W4 m ρ c)
theorem k5_v42 : W5 m ρ c (Proc.devRef .tc main_v42) = W4 m ρ c (Proc.devRef .tc main_v42) := HostRead.ops2_v42 (W4 m ρ c)
theorem k5_arg1 : W5 m ρ c (Proc.devRef .tc main_arg1) = W4 m ρ c (Proc.devRef .tc main_arg1) := HostRead.ops2_arg1 (W4 m ρ c)
theorem l5_v8 : W5 m ρ c (Proc.devRef .tc main_v8) = Wc m ρ c := (k5_v8 m ρ c).trans (l4_v8 m ρ c)

/-! ## After the candidate layer -/

/-- What the third kernel call leaves: the candidate layer's array. -/
theorem l6_v68 : W6 m ρ c (Proc.devRef .tc main_v68) = Cert.GruCell.cand (X2 m ρ c) (Wc m ρ c) (shapeCast _ (Bc m ρ c) shapeCasts_S64_S1x64) := by
  refine (W6_arr m ρ c 3).trans ((Regions.cand_array (V5 m ρ) c).trans ?_)
  show Cert.GruCell.cand (W5 m ρ c (Proc.devRef .tc main_v66)) (W5 m ρ c (Proc.devRef .tc main_v8)) (W5 m ρ c (Proc.devRef .tc main_v67)) = _
  rw [l5_v66, l5_v8, l5_v67]
theorem k6_v42 : W6 m ρ c (Proc.devRef .tc main_v42) = W5 m ρ c (Proc.devRef .tc main_v42) := W6_of_ne m ρ c main_v42 (by decide)
theorem k6_arg1 : W6 m ρ c (Proc.devRef .tc main_arg1) = W5 m ρ c (Proc.devRef .tc main_arg1) := W6_of_ne m ρ c main_arg1 (by decide)

/-! ## After the last stretch -/

theorem l7_v69 : W7 m ρ c (Proc.devRef .tc main_v69) = Cert.ReferenceIdeal.Chain.candidate (X2 m ρ c) (Wc m ρ c) (Bc m ρ c) := by
  refine (HostRead.ops3_v69 (W6 m ρ c)).trans ?_
  rw [l6_v68]
  exact Cert.ReferenceIdeal.Stages.cand_stage (X2 m ρ c) (Wc m ρ c) (Bc m ρ c) _ _
theorem k7_v42 : W7 m ρ c (Proc.devRef .tc main_v42) = W6 m ρ c (Proc.devRef .tc main_v42) := HostRead.ops3_v42 (W6 m ρ c)
theorem k7_arg1 : W7 m ρ c (Proc.devRef .tc main_arg1) = W6 m ρ c (Proc.devRef .tc main_arg1) := HostRead.ops3_arg1 (W6 m ρ c)
theorem l7_v42 : W7 m ρ c (Proc.devRef .tc main_v42) = Cert.ReferenceIdeal.Chain.updateHalf (G m ρ c) :=
  (k7_v42 m ρ c).trans ((k6_v42 m ρ c).trans ((k5_v42 m ρ c).trans (l4_v42 m ρ c)))
theorem l7_arg1 : W7 m ρ c (Proc.devRef .tc main_arg1) = A m ρ c main_arg1 :=
  (k7_arg1 m ρ c).trans ((k6_arg1 m ρ c).trans ((k5_arg1 m ρ c).trans (l4_arg1 m ρ c)))

/-! ## The result -/

/-- What the last kernel call leaves in the result array: one step of the cell, of the seventeen arguments. -/
theorem result : W8 m ρ c (Proc.devRef .tc main_v70)
    = Cert.ReferenceIdeal.Chain.cell (A m ρ c main_arg0) (A m ρ c main_arg1) (A m ρ c main_arg2) (A m ρ c main_arg3) (A m ρ c main_arg4)
        (A m ρ c main_arg5) (A m ρ c main_arg6) (A m ρ c main_arg7) (A m ρ c main_arg8) (A m ρ c main_arg9)
        (A m ρ c main_arg10) (A m ρ c main_arg11) (A m ρ c main_arg12) (A m ρ c main_arg13) (A m ρ c main_arg14)
        (A m ρ c main_arg15) (A m ρ c main_arg16) := by
  refine (W8_arr m ρ c 3).trans ((Regions.blend_array (V7 m ρ) c).trans ?_)
  show Cert.GruCell.blend (W7 m ρ c (Proc.devRef .tc main_v42)) (W7 m ρ c (Proc.devRef .tc main_arg1)) (W7 m ρ c (Proc.devRef .tc main_v69)) = _
  rw [l7_v42, l7_arg1, l7_v69, Cert.ReferenceIdeal.Stages.blend_stage]
  rfl

end Cert.KernelIdeal.CellValue

end
-- ==== Proof.RefRead.lean ====
/-
  The reference program's 96 host operations read in five stretches — the four sampled weights; the first design matrix; the
  gate layer and its two halves; the second design matrix, over the reset state; the candidate layer and the blend — each
  stretch's results as the stage functions of what the stretch finds, and their composition: the result buffer ends at the
  cell of the seventeen arguments, and no operation writes an argument.
-/
import proofs.«159687_j90202903150932_1_alg».proof.Proof.ReferenceIdealRun
import proofs.«159687_j90202903150932_1_alg».proof.Proof.Chain
import Idealize.ShloMosaic.Lib.Pipeline.Frame

set_option maxRecDepth 16384

noncomputable section

namespace Cert.ReferenceIdeal.FoldRead

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F))

/-! ## The five stretches -/

/-- The four sampled weights. -/
abbrev weightOps : List (HloOp τ sig (Elt F)) :=
  [ unary main_arg4 main_v0 (Host.exp : (⟨S132x128, .f32⟩ : BufTy).Contents (Elt F) → (⟨S132x128, .f32⟩ : BufTy).Contents (Elt F)),
    binary main_v0 main_arg11 main_v1 (mulf : (⟨S132x128, .f32⟩ : BufTy).Contents (Elt F) → (⟨S132x128, .f32⟩ : BufTy).Contents (Elt F) → (⟨S132x128, .f32⟩ : BufTy).Contents (Elt F)),
    binary main_arg3 main_v1 main_v2 (addf : (⟨S132x128, .f32⟩ : BufTy).Contents (Elt F) → (⟨S132x128, .f32⟩ : BufTy).Contents (Elt F) → (⟨S132x128, .f32⟩ : BufTy).Contents (Elt F)),
    unary main_arg6 main_v3 (Host.exp : (⟨S128, .f32⟩ : BufTy).Contents (Elt F) → (⟨S128, .f32⟩ : BufTy).Contents (Elt F)),
    binary main_v3 main_arg12 main_v4 (mulf : (⟨S128, .f32⟩ : BufTy).Contents (Elt F) → (⟨S128, .f32⟩ : BufTy).Contents (Elt F) → (⟨S128, .f32⟩ : BufTy).Contents (Elt F)),
    binary main_arg5 main_v4 main_v5 (addf : (⟨S128, .f32⟩ : BufTy).Contents (Elt F) → (⟨S128, .f32⟩ : BufTy).Contents (Elt F) → (⟨S128, .f32⟩ : BufTy).Contents (Elt F)),
    unary main_arg8 main_v6 (Host.exp : (⟨S132x64, .f32⟩ : BufTy).Contents (Elt F) → (⟨S132x64, .f32⟩ : BufTy).Contents (Elt F)),
    binary main_v6 main_arg13 main_v7 (mulf : (⟨S132x64, .f32⟩ : BufTy).Contents (Elt F) → (⟨S132x64, .f32⟩ : BufTy).Contents (Elt F) → (⟨S132x64, .f32⟩ : BufTy).Contents (Elt F)),
    binary main_arg7 main_v7 main_v8 (addf : (⟨S132x64, .f32⟩ : BufTy).Contents (Elt F) → (⟨S132x64, .f32⟩ : BufTy).Contents (Elt F) → (⟨S132x64, .f32⟩ : BufTy).Contents (Elt F)),
    unary main_arg10 main_v9 (Host.exp : (⟨S64, .f32⟩ : BufTy).Contents (Elt F) → (⟨S64, .f32⟩ : BufTy).Contents (Elt F)),
    binary main_v9 main_arg14 main_v10 (mulf : (⟨S64, .f32⟩ : BufTy).Contents (Elt F) → (⟨S64, .f32⟩ : BufTy).Contents (Elt F) → (⟨S64, .f32⟩ : BufTy).Contents (Elt F)),
    binary main_arg9 main_v10 main_v11 (addf : (⟨S64, .f32⟩ : BufTy).Contents (Elt F) → (⟨S64, .f32⟩ : BufTy).Contents (Elt F) → (⟨S64, .f32⟩ : BufTy).Contents (Elt F)) ]

/-- The first design matrix. -/
abbrev designOps : List (HloOp τ sig (Elt F)) :=
  [ reshape main_arg0 main_v12 rfl shapeCasts_S16x20000_S16x10000x2,
    reshape main_arg1 main_v13 rfl shapeCasts_S16x640000_S16x10000x64,
    binary main_v12 main_v13 main_v14 ((fun a b => concatenate S16x10000x66 2 [⟨S16x10000x2, a⟩, ⟨S16x10000x64, b⟩] concatenates_S16x10000x2_S16x10000x64_S16x10000x66_d2) : (⟨S16x10000x2, .f32⟩ : BufTy).Contents (Elt F) → (⟨S16x10000x64, .f32⟩ : BufTy).Contents (Elt F) → (⟨S16x10000x66, .f32⟩ : BufTy).Contents (Elt F)),
    unary main_v14 main_v15 ((transpose S10000x66x16 [1, 2, 0] · transposes_S16x10000x66_S10000x66x16_1_2_0) : (⟨S16x10000x66, .f32⟩ : BufTy).Contents (Elt F) → (⟨S10000x66x16, .f32⟩ : BufTy).Contents (Elt F)),
    reshape main_v15 main_v16 rfl shapeCasts_S10000x66x16_S10000x1056,
    unary main_arg2 main_v17 (broadcastInDim S80000x1 ![0] bcast_S80000_S80000x1_0 : (⟨S80000, .f32⟩ : BufTy).Contents (Elt F) → (⟨S80000x1, .f32⟩ : BufTy).Contents (Elt F)),
    nullary main_c (constantI S_ 32 0#32),
    unary main_c main_v18 (broadcastInDim S80000 ![] bcast_S_S80000 : (⟨S_, .i32⟩ : BufTy).Contents (Elt F) → (⟨S80000, .i32⟩ : BufTy).Contents (Elt F)),
    binary main_arg16 main_v18 main_v19 (cmpi .slt : (⟨S80000, .i32⟩ : BufTy).Contents (Elt F) → (⟨S80000, .i32⟩ : BufTy).Contents (Elt F) → (⟨S80000, .i1⟩ : BufTy).Contents (Elt F)),
    nullary main_c_0 (constantI S_ 32 10000#32),
    unary main_c_0 main_v20 (broadcastInDim S80000 ![] bcast_S_S80000 : (⟨S_, .i32⟩ : BufTy).Contents (Elt F) → (⟨S80000, .i32⟩ : BufTy).Contents (Elt F)),
    binary main_arg16 main_v20 main_v21 (addi : (⟨S80000, .i32⟩ : BufTy).Contents (Elt F) → (⟨S80000, .i32⟩ : BufTy).Contents (Elt F) → (⟨S80000, .i32⟩ : BufTy).Contents (Elt F)),
    ternary main_v19 main_v21 main_arg16 main_v22 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),
    unary main_v22 main_v23 (broadcastInDim S80000x1 ![0] bcast_S80000_S80000x1_0 : (⟨S80000, .i32⟩ : BufTy).Contents (Elt F) → (⟨S80000x1, .i32⟩ : BufTy).Contents (Elt F)),
    binary main_v16 main_v23 main_v24 ((fun x i => Host.gather gather_S10000x1056_S80000x1_S80000x1056_1_0_n_n_0_1_11056 x i) : (⟨S10000x1056, .f32⟩ : BufTy).Contents (Elt F) → (⟨S80000x1, .i32⟩ : BufTy).Contents (Elt F) → (⟨S80000x1056, .f32⟩ : BufTy).Contents (Elt F)),
    unary main_v17 main_v25 (broadcastInDim S80000x1056 ![0, 1] bcast_S80000x1_S80000x1056_0_1 : (⟨S80000x1, .f32⟩ : BufTy).Contents (Elt F) → (⟨S80000x1056, .f32⟩ : BufTy).Contents (Elt F)),
    binary main_v25 main_v24 main_v26 (mulf : (⟨S80000x1056, .f32⟩ : BufTy).Contents (Elt F) → (⟨S80000x1056, .f32⟩ : BufTy).Contents (Elt F) → (⟨S80000x1056, .f32⟩ : BufTy).Contents (Elt F)),
    nullary main_cst (constant S_ .f32 0x00000000#32),
    unary main_cst main_v27 (broadcastInDim S10000x1056 ![] bcast_S_S10000x1056 : (⟨S_, .f32⟩ : BufTy).Contents (Elt F) → (⟨S10000x1056, .f32⟩ : BufTy).Contents (Elt F)),
    unary main_arg15 main_v28 (broadcastInDim S80000x1 ![0] bcast_S80000_S80000x1_0 : (⟨S80000, .i32⟩ : BufTy).Contents (Elt F) → (⟨S80000x1, .i32⟩ : BufTy).Contents (Elt F)),
    ternary main_v27 main_v28 main_v26 main_v29 ((fun x i u => Host.scatterAdd scatter_S10000x1056_S80000x1_S80000x1056_1_0_0_1 x i u) : (⟨S10000x1056, .f32⟩ : BufTy).Contents (Elt F) → (⟨S80000x1, .i32⟩ : BufTy).Contents (Elt F) → (⟨S80000x1056, .f32⟩ : BufTy).Contents (Elt F) → (⟨S10000x1056, .f32⟩ : BufTy).Contents (Elt F)),
    unary main_v16 main_v30 (broadcastInDim S1x10000x1056 ![1, 2] bcast_S10000x1056_S1x10000x1056_1_2 : (⟨S10000x1056, .f32⟩ : BufTy).Contents (Elt F) → (⟨S1x10000x1056, .f32⟩ : BufTy).Contents (Elt F)),
    unary main_v29 main_v31 (broadcastInDim S1x10000x1056 ![1, 2] bcast_S10000x1056_S1x10000x1056_1_2 : (⟨S10000x1056, .f32⟩ : BufTy).Contents (Elt F) → (⟨S1x10000x1056, .f32⟩ : BufTy).Contents (Elt F)),
    binary main_v30 main_v31 main_v32 ((fun a b => concatenate S2x10000x1056 0 [⟨S1x10000x1056, a⟩, ⟨S1x10000x1056, b⟩] concatenates_S1x10000x1056_S1x10000x1056_S2x10000x1056_d0) : (⟨S1x10000x1056, .f32⟩ : BufTy).Contents (Elt F) → (⟨S1x10000x1056, .f32⟩ : BufTy).Contents (Elt F) → (⟨S2x10000x1056, .f32⟩ : BufTy).Contents (Elt F)),
    reshape main_v32 main_v33 rfl shapeCasts_S2x10000x1056_S2x10000x66x16,
    unary main_v33 main_v34 ((transpose S16x10000x66x2 [3, 1, 2, 0] · transposes_S2x10000x66x16_S16x10000x66x2_3_1_2_0) : (⟨S2x10000x66x16, .f32⟩ : BufTy).Contents (Elt F) → (⟨S16x10000x66x2, .f32⟩ : BufTy).Contents (Elt F)),
    reshape main_v34 main_v35 rfl shapeCasts_S16x10000x66x2_S160000x132 ]

/-- The gate layer and its two halves. -/
abbrev gateOps : List (HloOp τ sig (Elt F)) :=
  [ binary main_v35 main_v2 main_v36 ((fun l r => Host.dotGeneral dot_S160000x132_S132x128_S160000x128_1_0_0_1_n_n none l r) : (⟨S160000x132, .f32⟩ : BufTy).Contents (Elt F) → (⟨S132x128, .f32⟩ : BufTy).Contents (Elt F) → (⟨S160000x128, .f32⟩ : BufTy).Contents (Elt F)),
    unary main_v5 main_v37 (broadcastInDim S1x128 ![1] bcast_S128_S1x128_1 : (⟨S128, .f32⟩ : BufTy).Contents (Elt F) → (⟨S1x128, .f32⟩ : BufTy).Contents (Elt F)),
    unary main_v37 main_v38 (broadcastInDim S160000x128 ![0, 1] bcast_S1x128_S160000x128_0_1 : (⟨S1x128, .f32⟩ : BufTy).Contents (Elt F) → (⟨S160000x128, .f32⟩ : BufTy).Contents (Elt F)),
    binary main_v36 main_v38 main_v39 (addf : (⟨S160000x128, .f32⟩ : BufTy).Contents (Elt F) → (⟨S160000x128, .f32⟩ : BufTy).Contents (Elt F) → (⟨S160000x128, .f32⟩ : BufTy).Contents (Elt F)),
    reshape main_v39 main_v40 rfl shapeCasts_S160000x128_S16x10000x128,
    unary main_v40 main_v41 (Host.negf : (⟨S16x10000x128, .f32⟩ : BufTy).Contents (Elt F) → (⟨S16x10000x128, .f32⟩ : BufTy).Contents (Elt F)),
    unary main_v41 main_v42 (Host.exp : (⟨S16x10000x128, .f32⟩ : BufTy).Contents (Elt F) → (⟨S16x10000x128, .f32⟩ : BufTy).Contents (Elt F)),
    nullary main_cst_1 (constant S_ .f32 0x3F800000#32),
    unary main_cst_1 main_v43 (broadcastInDim S16x10000x128 ![] bcast_S_S16x10000x128 : (⟨S_, .f32⟩ : BufTy).Contents (Elt F) → (⟨S16x10000x128, .f32⟩ : BufTy).Contents (Elt F)),
    binary main_v43 main_v42 main_v44 (addf : (⟨S16x10000x128, .f32⟩ : BufTy).Contents (Elt F) → (⟨S16x10000x128, .f32⟩ : BufTy).Contents (Elt F) → (⟨S16x10000x128, .f32⟩ : BufTy).Contents (Elt F)),
    nullary main_cst_2 (constant S_ .f32 0x3F800000#32),
    unary main_cst_2 main_v45 (broadcastInDim S16x10000x128 ![] bcast_S_S16x10000x128 : (⟨S_, .f32⟩ : BufTy).Contents (Elt F) → (⟨S16x10000x128, .f32⟩ : BufTy).Contents (Elt F)),
    binary main_v45 main_v44 main_v46 (Host.divf : (⟨S16x10000x128, .f32⟩ : BufTy).Contents (Elt F) → (⟨S16x10000x128, .f32⟩ : BufTy).Contents (Elt F) → (⟨S16x10000x128, .f32⟩ : BufTy).Contents (Elt F)),
    unary main_v46 main_v47 ((extractStridedSlice S16x10000x64 ![0, 0, 0] · slices_S16x10000x128_S16x10000x64_0_0_0) : (⟨S16x10000x128, .f32⟩ : BufTy).Contents (Elt F) → (⟨S16x10000x64, .f32⟩ : BufTy).Contents (Elt F)),
    unary main_v46 main_v48 ((extractStridedSlice S16x10000x64 ![0, 0, 64] · slices_S16x10000x128_S16x10000x64_0_0_64) : (⟨S16x10000x128, .f32⟩ : BufTy).Contents (Elt F) → (⟨S16x10000x64, .f32⟩ : BufTy).Contents (Elt F)),
    reshape main_v47 main_v49 rfl shapeCasts_S16x10000x64_S16x640000,
    reshape main_v48 main_v50 rfl shapeCasts_S16x10000x64_S16x640000 ]

/-- The reset product and the second design matrix. -/
abbrev resetOps : List (HloOp τ sig (Elt F)) :=
  [ binary main_v49 main_arg1 main_v51 (mulf : (⟨S16x640000, .f32⟩ : BufTy).Contents (Elt F) → (⟨S16x640000, .f32⟩ : BufTy).Contents (Elt F) → (⟨S16x640000, .f32⟩ : BufTy).Contents (Elt F)),
    reshape main_v51 main_v52 rfl shapeCasts_S16x640000_S16x10000x64,
    binary main_v12 main_v52 main_v53 ((fun a b => concatenate S16x10000x66 2 [⟨S16x10000x2, a⟩, ⟨S16x10000x64, b⟩] concatenates_S16x10000x2_S16x10000x64_S16x10000x66_d2) : (⟨S16x10000x2, .f32⟩ : BufTy).Contents (Elt F) → (⟨S16x10000x64, .f32⟩ : BufTy).Contents (Elt F) → (⟨S16x10000x66, .f32⟩ : BufTy).Contents (Elt F)),
    unary main_v53 main_v54 ((transpose S10000x66x16 [1, 2, 0] · transposes_S16x10000x66_S10000x66x16_1_2_0) : (⟨S16x10000x66, .f32⟩ : BufTy).Contents (Elt F) → (⟨S10000x66x16, .f32⟩ : BufTy).Contents (Elt F)),
    reshape main_v54 main_v55 rfl shapeCasts_S10000x66x16_S10000x1056,
    unary main_arg2 main_v56 (broadcastInDim S80000x1 ![0] bcast_S80000_S80000x1_0 : (⟨S80000, .f32⟩ : BufTy).Contents (Elt F) → (⟨S80000x1, .f32⟩ : BufTy).Contents (Elt F)),
    nullary main_c_3 (constantI S_ 32 0#32),
    unary main_c_3 main_v57 (broadcastInDim S80000 ![] bcast_S_S80000 : (⟨S_, .i32⟩ : BufTy).Contents (Elt F) → (⟨S80000, .i32⟩ : BufTy).Contents (Elt F)),
    binary main_arg16 main_v57 main_v58 (cmpi .slt : (⟨S80000, .i32⟩ : BufTy).Contents (Elt F) → (⟨S80000, .i32⟩ : BufTy).Contents (Elt F) → (⟨S80000, .i1⟩ : BufTy).Contents (Elt F)),
    nullary main_c_4 (constantI S_ 32 10000#32),
    unary main_c_4 main_v59 (broadcastInDim S80000 ![] bcast_S_S80000 : (⟨S_, .i32⟩ : BufTy).Contents (Elt F) → (⟨S80000, .i32⟩ : BufTy).Contents (Elt F)),
    binary main_arg16 main_v59 main_v60 (addi : (⟨S80000, .i32⟩ : BufTy).Contents (Elt F) → (⟨S80000, .i32⟩ : BufTy).Contents (Elt F) → (⟨S80000, .i32⟩ : BufTy).Contents (Elt F)),
    ternary main_v58 main_v60 main_arg16 main_v61 (select : (⟨S80000, .i1⟩ : BufTy).Contents (Elt F) → (⟨S80000, .i32⟩ : BufTy).Contents (Elt F) → (⟨S80000, .i32⟩ : BufTy).Contents (Elt F) → (⟨S80000, .i32⟩ : BufTy).Contents (Elt F)),
    unary main_v61 main_v62 (broadcastInDim S80000x1 ![0] bcast_S80000_S80000x1_0 : (⟨S80000, .i32⟩ : BufTy).Contents (Elt F) → (⟨S80000x1, .i32⟩ : BufTy).Contents (Elt F)),
    binary main_v55 main_v62 main_v63 ((fun x i => Host.gather gather_S10000x1056_S80000x1_S80000x1056_1_0_n_n_0_1_11056 x i) : (⟨S10000x1056, .f32⟩ : BufTy).Contents (Elt F) → (⟨S80000x1, .i32⟩ : BufTy).Contents (Elt F) → (⟨S80000x1056, .f32⟩ : BufTy).Contents (Elt F)),
    unary main_v56 main_v64 (broadcastInDim S80000x1056 ![0, 1] bcast_S80000x1_S80000x1056_0_1 : (⟨S80000x1, .f32⟩ : BufTy).Contents (Elt F) → (⟨S80000x1056, .f32⟩ : BufTy).Contents (Elt F)),
    binary main_v64 main_v63 main_v65 (mulf : (⟨S80000x1056, .f32⟩ : BufTy).Contents (Elt F) → (⟨S80000x1056, .f32⟩ : BufTy).Contents (Elt F) → (⟨S80000x1056, .f32⟩ : BufTy).Contents (Elt F)),
    nullary main_cst_5 (constant S_ .f32 0x00000000#32),
    unary main_cst_5 main_v66 (broadcastInDim S10000x1056 ![] bcast_S_S10000x1056 : (⟨S_, .f32⟩ : BufTy).Contents (Elt F) → (⟨S10000x1056, .f32⟩ : BufTy).Contents (Elt F)),
    unary main_arg15 main_v67 (broadcastInDim S80000x1 ![0] bcast_S80000_S80000x1_0 : (⟨S80000, .i32⟩ : BufTy).Contents (Elt F) → (⟨S80000x1, .i32⟩ : BufTy).Contents (Elt F)),
    ternary main_v66 main_v67 main_v65 main_v68 ((fun x i u => Host.scatterAdd scatter_S10000x1056_S80000x1_S80000x1056_1_0_0_1 x i u) : (⟨S10000x1056, .f32⟩ : BufTy).Contents (Elt F) → (⟨S80000x1, .i32⟩ : BufTy).Contents (Elt F) → (⟨S80000x1056, .f32⟩ : BufTy).Contents (Elt F) → (⟨S10000x1056, .f32⟩ : BufTy).Contents (Elt F)),
    unary main_v55 main_v69 (broadcastInDim S1x10000x1056 ![1, 2] bcast_S10000x1056_S1x10000x1056_1_2 : (⟨S10000x1056, .f32⟩ : BufTy).Contents (Elt F) → (⟨S1x10000x1056, .f32⟩ : BufTy).Contents (Elt F)),
    unary main_v68 main_v70 (broadcastInDim S1x10000x1056 ![1, 2] bcast_S10000x1056_S1x10000x1056_1_2 : (⟨S10000x1056, .f32⟩ : BufTy).Contents (Elt F) → (⟨S1x10000x1056, .f32⟩ : BufTy).Contents (Elt F)),
    binary main_v69 main_v70 main_v71 ((fun a b => concatenate S2x10000x1056 0 [⟨S1x10000x1056, a⟩, ⟨S1x10000x1056, b⟩] concatenates_S1x10000x1056_S1x10000x1056_S2x10000x1056_d0) : (⟨S1x10000x1056, .f32⟩ : BufTy).Contents (Elt F) → (⟨S1x10000x1056, .f32⟩ : BufTy).Contents (Elt F) → (⟨S2x10000x1056, .f32⟩ : BufTy).Contents (Elt F)),
    reshape main_v71 main_v72 rfl shapeCasts_S2x10000x1056_S2x10000x66x16,
    unary main_v72 main_v73 ((transpose S16x10000x66x2 [3, 1, 2, 0] · transposes_S2x10000x66x16_S16x10000x66x2_3_1_2_0) : (⟨S2x10000x66x16, .f32⟩ : BufTy).Contents (Elt F) → (⟨S16x10000x66x2, .f32⟩ : BufTy).Contents (Elt F)),
    reshape main_v73 main_v74 rfl shapeCasts_S16x10000x66x2_S160000x132 ]

/-- The candidate layer and the blend. -/
abbrev blendOps : List (HloOp τ sig (Elt F)) :=
  [ binary main_v74 main_v8 main_v75 ((fun l r => Host.dotGeneral dot_S160000x132_S132x64_S160000x64_1_0_0_1_n_n none l r) : (⟨S160000x132, .f32⟩ : BufTy).Contents (Elt F) → (⟨S132x64, .f32⟩ : BufTy).Contents (Elt F) → (⟨S160000x64, .f32⟩ : BufTy).Contents (Elt F)),
    unary main_v11 main_v76 (broadcastInDim S1x64 ![1] bcast_S64_S1x64_1 : (⟨S64, .f32⟩ : BufTy).Contents (Elt F) → (⟨S1x64, .f32⟩ : BufTy).Contents (Elt F)),
    unary main_v76 main_v77 (broadcastInDim S160000x64 ![0, 1] bcast_S1x64_S160000x64_0_1 : (⟨S1x64, .f32⟩ : BufTy).Contents (Elt F) → (⟨S160000x64, .f32⟩ : BufTy).Contents (Elt F)),
    binary main_v75 main_v77 main_v78 (addf : (⟨S160000x64, .f32⟩ : BufTy).Contents (Elt F) → (⟨S160000x64, .f32⟩ : BufTy).Contents (Elt F) → (⟨S160000x64, .f32⟩ : BufTy).Contents (Elt F)),
    reshape main_v78 main_v79 rfl shapeCasts_S160000x64_S16x10000x64,
    reshape main_v79 main_v80 rfl shapeCasts_S16x10000x64_S16x640000,
    unary main_v80 main_v81 (Host.tanh : (⟨S16x640000, .f32⟩ : BufTy).Contents (Elt F) → (⟨S16x640000, .f32⟩ : BufTy).Contents (Elt F)),
    binary main_v50 main_arg1 main_v82 (mulf : (⟨S16x640000, .f32⟩ : BufTy).Contents (Elt F) → (⟨S16x640000, .f32⟩ : BufTy).Contents (Elt F) → (⟨S16x640000, .f32⟩ : BufTy).Contents (Elt F)),
    nullary main_cst_6 (constant S_ .f32 0x3F800000#32),
    unary main_cst_6 main_v83 (broadcastInDim S16x640000 ![] bcast_S_S16x640000 : (⟨S_, .f32⟩ : BufTy).Contents (Elt F) → (⟨S16x640000, .f32⟩ : BufTy).Contents (Elt F)),
    binary main_v83 main_v50 main_v84 (subf : (⟨S16x640000, .f32⟩ : BufTy).Contents (Elt F) → (⟨S16x640000, .f32⟩ : BufTy).Contents (Elt F) → (⟨S16x640000, .f32⟩ : BufTy).Contents (Elt F)),
    binary main_v84 main_v81 main_v85 (mulf : (⟨S16x640000, .f32⟩ : BufTy).Contents (Elt F) → (⟨S16x640000, .f32⟩ : BufTy).Contents (Elt F) → (⟨S16x640000, .f32⟩ : BufTy).Contents (Elt F)),
    binary main_v82 main_v85 main_v86 (addf : (⟨S16x640000, .f32⟩ : BufTy).Contents (Elt F) → (⟨S16x640000, .f32⟩ : BufTy).Contents (Elt F) → (⟨S16x640000, .f32⟩ : BufTy).Contents (Elt F)) ]

/-- The program's operations are the five stretches in a row. -/
theorem ops_split : (ValueFold.ops (F := F)) = weightOps ++ (designOps ++ (gateOps ++ (resetOps ++ blendOps))) := rfl

/-! ## The weights -/

theorem wt_v2 : after (weightOps (F := F)) W (Proc.devRef .tc main_v2) = Chain.weight (W (Proc.devRef .tc main_arg3)) (W (Proc.devRef .tc main_arg4)) (W (Proc.devRef .tc main_arg11)) := by
  dsimp only [weightOps]; after_results_simp; rfl
theorem wt_v5 : after (weightOps (F := F)) W (Proc.devRef .tc main_v5) = Chain.weight (W (Proc.devRef .tc main_arg5)) (W (Proc.devRef .tc main_arg6)) (W (Proc.devRef .tc main_arg12)) := by
  dsimp only [weightOps]; after_results_simp; rfl
theorem wt_v8 : after (weightOps (F := F)) W (Proc.devRef .tc main_v8) = Chain.weight (W (Proc.devRef .tc main_arg7)) (W (Proc.devRef .tc main_arg8)) (W (Proc.devRef .tc main_arg13)) := by
  dsimp only [weightOps]; after_results_simp; rfl
theorem wt_v11 : after (weightOps (F := F)) W (Proc.devRef .tc main_v11) = Chain.weight (W (Proc.devRef .tc main_arg9)) (W (Proc.devRef .tc main_arg10)) (W (Proc.devRef .tc main_arg14)) := by
  dsimp only [weightOps]; after_results_simp; rfl
theorem wt_keep_arg0 : after (weightOps (F := F)) W (Proc.devRef .tc main_arg0) = W (Proc.devRef .tc main_arg0) := by
  dsimp only [weightOps]; after_results_simp <;> rfl
theorem wt_keep_arg1 : after (weightOps (F := F)) W (Proc.devRef .tc main_arg1) = W (Proc.devRef .tc main_arg1) := by
  dsimp only [weightOps]; after_results_simp <;> rfl
theorem wt_keep_arg2 : after (weightOps (F := F)) W (Proc.devRef .tc main_arg2) = W (Proc.devRef .tc main_arg2) := by
  dsimp only [weightOps]; after_results_simp <;> rfl
theorem wt_keep_arg15 : after (weightOps (F := F)) W (Proc.devRef .tc main_arg15) = W (Proc.devRef .tc main_arg15) := by
  dsimp only [weightOps]; after_results_simp <;> rfl
theorem wt_keep_arg16 : after (weightOps (F := F)) W (Proc.devRef .tc main_arg16) = W (Proc.devRef .tc main_arg16) := by
  dsimp only [weightOps]; after_results_simp <;> rfl

/-! ## The first design matrix -/

set_option maxHeartbeats 2000000 in
theorem ds_v35 : after (designOps (F := F)) W (Proc.devRef .tc main_v35)
    = Chain.design (shapeCast _ (W (Proc.devRef .tc main_arg0)) shapeCasts_S16x20000_S16x10000x2) (W (Proc.devRef .tc main_arg1)) (W (Proc.devRef .tc main_arg2)) (W (Proc.devRef .tc main_arg15)) (W (Proc.devRef .tc main_arg16)) := by
  dsimp only [designOps]; after_results_simp; rfl
theorem ds_v12 : after (designOps (F := F)) W (Proc.devRef .tc main_v12) = shapeCast _ (W (Proc.devRef .tc main_arg0)) shapeCasts_S16x20000_S16x10000x2 := by
  dsimp only [designOps]; after_results_simp; rfl
theorem ds_keep_v2 : after (designOps (F := F)) W (Proc.devRef .tc main_v2) = W (Proc.devRef .tc main_v2) := by
  dsimp only [designOps]; after_results_simp <;> rfl
theorem ds_keep_v5 : after (designOps (F := F)) W (Proc.devRef .tc main_v5) = W (Proc.devRef .tc main_v5) := by
  dsimp only [designOps]; after_results_simp <;> rfl
theorem ds_keep_v8 : after (designOps (F := F)) W (Proc.devRef .tc main_v8) = W (Proc.devRef .tc main_v8) := by
  dsimp only [designOps]; after_results_simp <;> rfl
theorem ds_keep_v11 : after (designOps (F := F)) W (Proc.devRef .tc main_v11) = W (Proc.devRef .tc main_v11) := by
  dsimp only [designOps]; after_results_simp <;> rfl
theorem ds_keep_arg1 : after (designOps (F := F)) W (Proc.devRef .tc main_arg1) = W (Proc.devRef .tc main_arg1) := by
  dsimp only [designOps]; after_results_simp <;> rfl
theorem ds_keep_arg2 : after (designOps (F := F)) W (Proc.devRef .tc main_arg2) = W (Proc.devRef .tc main_arg2) := by
  dsimp only [designOps]; after_results_simp <;> rfl
theorem ds_keep_arg15 : after (designOps (F := F)) W (Proc.devRef .tc main_arg15) = W (Proc.devRef .tc main_arg15) := by
  dsimp only [designOps]; after_results_simp <;> rfl
theorem ds_keep_arg16 : after (designOps (F := F)) W (Proc.devRef .tc main_arg16) = W (Proc.devRef .tc main_arg16) := by
  dsimp only [designOps]; after_results_simp <;> rfl

/-! ## The gate layer -/

theorem gt_v49 : after (gateOps (F := F)) W (Proc.devRef .tc main_v49) = Chain.resetHalf (Chain.gates (W (Proc.devRef .tc main_v35)) (W (Proc.devRef .tc main_v2)) (W (Proc.devRef .tc main_v5))) := by
  dsimp only [gateOps]; after_results_simp; rfl
theorem gt_v50 : after (gateOps (F := F)) W (Proc.devRef .tc main_v50) = Chain.updateHalf (Chain.gates (W (Proc.devRef .tc main_v35)) (W (Proc.devRef .tc main_v2)) (W (Proc.devRef .tc main_v5))) := by
  dsimp only [gateOps]; after_results_simp; rfl
theorem gt_keep_v12 : after (gateOps (F := F)) W (Proc.devRef .tc main_v12) = W (Proc.devRef .tc main_v12) := by
  dsimp only [gateOps]; after_results_simp <;> rfl
theorem gt_keep_v8 : after (gateOps (F := F)) W (Proc.devRef .tc main_v8) = W (Proc.devRef .tc main_v8) := by
  dsimp only [gateOps]; after_results_simp <;> rfl
theorem gt_keep_v11 : after (gateOps (F := F)) W (Proc.devRef .tc main_v11) = W (Proc.devRef .tc main_v11) := by
  dsimp only [gateOps]; after_results_simp <;> rfl
theorem gt_keep_arg1 : after (gateOps (F := F)) W (Proc.devRef .tc main_arg1) = W (Proc.devRef .tc main_arg1) := by
  dsimp only [gateOps]; after_results_simp <;> rfl
theorem gt_keep_arg2 : after (gateOps (F := F)) W (Proc.devRef .tc main_arg2) = W (Proc.devRef .tc main_arg2) := by
  dsimp only [gateOps]; after_results_simp <;> rfl
theorem gt_keep_arg15 : after (gateOps (F := F)) W (Proc.devRef .tc main_arg15) = W (Proc.devRef .tc main_arg15) := by
  dsimp only [gateOps]; after_results_simp <;> rfl
theorem gt_keep_arg16 : after (gateOps (F := F)) W (Proc.devRef .tc main_arg16) = W (Proc.devRef .tc main_arg16) := by
  dsimp only [gateOps]; after_results_simp <;> rfl

/-! ## The second design matrix -/

set_option maxHeartbeats 2000000 in
theorem rs_v74 : after (resetOps (F := F)) W (Proc.devRef .tc main_v74)
    = Chain.design (W (Proc.devRef .tc main_v12)) (mulf (W (Proc.devRef .tc main_v49)) (W (Proc.devRef .tc main_arg1))) (W (Proc.devRef .tc main_arg2)) (W (Proc.devRef .tc main_arg15)) (W (Proc.devRef .tc main_arg16)) := by
  dsimp only [resetOps]; after_results_simp; rfl
theorem rs_keep_v8 : after (resetOps (F := F)) W (Proc.devRef .tc main_v8) = W (Proc.devRef .tc main_v8) := by
  dsimp only [resetOps]; after_results_simp <;> rfl
theorem rs_keep_v11 : after (resetOps (F := F)) W (Proc.devRef .tc main_v11) = W (Proc.devRef .tc main_v11) := by
  dsimp only [resetOps]; after_results_simp <;> rfl
theorem rs_keep_v50 : after (resetOps (F := F)) W (Proc.devRef .tc main_v50) = W (Proc.devRef .tc main_v50) := by
  dsimp only [resetOps]; after_results_simp <;> rfl
theorem rs_keep_arg1 : after (resetOps (F := F)) W (Proc.devRef .tc main_arg1) = W (Proc.devRef .tc main_arg1) := by
  dsimp only [resetOps]; after_results_simp <;> rfl

/-! ## The candidate layer and the blend -/

theorem bl_v86 : after (blendOps (F := F)) W (Proc.devRef .tc main_v86)
    = Chain.newState (W (Proc.devRef .tc main_v50)) (W (Proc.devRef .tc main_arg1)) (Chain.candidate (W (Proc.devRef .tc main_v74)) (W (Proc.devRef .tc main_v8)) (W (Proc.devRef .tc main_v11))) := by
  dsimp only [blendOps]; after_results_simp; rfl

/-! ## The whole program -/

/-- The result buffer after the 96 operations: the cell of the arguments' contents. -/
theorem result : after (ValueFold.ops (F := F)) W (Proc.devRef .tc main_v86)
    = Chain.cell (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  rw [ops_split, after_append, after_append, after_append, after_append]
  rw [bl_v86, rs_v74, rs_keep_v50, rs_keep_arg1, rs_keep_v8, rs_keep_v11]
  rw [gt_v49, gt_v50, gt_keep_v12, gt_keep_v8, gt_keep_v11, gt_keep_arg1, gt_keep_arg2, gt_keep_arg15, gt_keep_arg16]
  rw [ds_v35, ds_v12, ds_keep_v2, ds_keep_v5, ds_keep_v8, ds_keep_v11, ds_keep_arg1, ds_keep_arg2, ds_keep_arg15, ds_keep_arg16]
  rw [wt_v2, wt_v5, wt_v8, wt_v11, wt_keep_arg0, wt_keep_arg1, wt_keep_arg2, wt_keep_arg15, wt_keep_arg16]
  rfl

theorem kept_arg0 : after (ValueFold.ops (F := F)) W (Proc.devRef .tc main_arg0) = W (Proc.devRef .tc main_arg0) := by
  dsimp only [ValueFold.ops]; after_results_simp <;> rfl
theorem kept_arg1 : after (ValueFold.ops (F := F)) W (Proc.devRef .tc main_arg1) = W (Proc.devRef .tc main_arg1) := by
  dsimp only [ValueFold.ops]; after_results_simp <;> rfl
theorem kept_arg2 : after (ValueFold.ops (F := F)) W (Proc.devRef .tc main_arg2) = W (Proc.devRef .tc main_arg2) := by
  dsimp only [ValueFold.ops]; after_results_simp <;> rfl
theorem kept_arg3 : after (ValueFold.ops (F := F)) W (Proc.devRef .tc main_arg3) = W (Proc.devRef .tc main_arg3) := by
  dsimp only [ValueFold.ops]; after_results_simp <;> rfl
theorem kept_arg4 : after (ValueFold.ops (F := F)) W (Proc.devRef .tc main_arg4) = W (Proc.devRef .tc main_arg4) := by
  dsimp only [ValueFold.ops]; after_results_simp <;> rfl
theorem kept_arg5 : after (ValueFold.ops (F := F)) W (Proc.devRef .tc main_arg5) = W (Proc.devRef .tc main_arg5) := by
  dsimp only [ValueFold.ops]; after_results_simp <;> rfl
theorem kept_arg6 : after (ValueFold.ops (F := F)) W (Proc.devRef .tc main_arg6) = W (Proc.devRef .tc main_arg6) := by
  dsimp only [ValueFold.ops]; after_results_simp <;> rfl
theorem kept_arg7 : after (ValueFold.ops (F := F)) W (Proc.devRef .tc main_arg7) = W (Proc.devRef .tc main_arg7) := by
  dsimp only [ValueFold.ops]; after_results_simp <;> rfl
theorem kept_arg8 : after (ValueFold.ops (F := F)) W (Proc.devRef .tc main_arg8) = W (Proc.devRef .tc main_arg8) := by
  dsimp only [ValueFold.ops]; after_results_simp <;> rfl
theorem kept_arg9 : after (ValueFold.ops (F := F)) W (Proc.devRef .tc main_arg9) = W (Proc.devRef .tc main_arg9) := by
  dsimp only [ValueFold.ops]; after_results_simp <;> rfl
theorem kept_arg10 : after (ValueFold.ops (F := F)) W (Proc.devRef .tc main_arg10) = W (Proc.devRef .tc main_arg10) := by
  dsimp only [ValueFold.ops]; after_results_simp <;> rfl
theorem kept_arg11 : after (ValueFold.ops (F := F)) W (Proc.devRef .tc main_arg11) = W (Proc.devRef .tc main_arg11) := by
  dsimp only [ValueFold.ops]; after_results_simp <;> rfl
theorem kept_arg12 : after (ValueFold.ops (F := F)) W (Proc.devRef .tc main_arg12) = W (Proc.devRef .tc main_arg12) := by
  dsimp only [ValueFold.ops]; after_results_simp <;> rfl
theorem kept_arg13 : after (ValueFold.ops (F := F)) W (Proc.devRef .tc main_arg13) = W (Proc.devRef .tc main_arg13) := by
  dsimp only [ValueFold.ops]; after_results_simp <;> rfl
theorem kept_arg14 : after (ValueFold.ops (F := F)) W (Proc.devRef .tc main_arg14) = W (Proc.devRef .tc main_arg14) := by
  dsimp only [ValueFold.ops]; after_results_simp <;> rfl
theorem kept_arg15 : after (ValueFold.ops (F := F)) W (Proc.devRef .tc main_arg15) = W (Proc.devRef .tc main_arg15) := by
  dsimp only [ValueFold.ops]; after_results_simp <;> rfl
theorem kept_arg16 : after (ValueFold.ops (F := F)) W (Proc.devRef .tc main_arg16) = W (Proc.devRef .tc main_arg16) := by
  dsimp only [ValueFold.ops]; after_results_simp <;> rfl

/-- Every weakly fair execution of the reference program terminates with its result at the cell of the arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = Chain.cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v86).trans (result _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _)⟩)
    (ValueFold.run_fold m ρ)

end Cert.ReferenceIdeal.FoldRead

end
-- ==== Proof.lean ====
/-
  The certificate of one step of a graph-convolutional gated recurrent cell: a kernel program of four kernel calls (the gate
  layer, the reset product, the candidate layer, the blend) among stretches of host operations, against a host program that
  computes the same step with plain array operations.

  On the extended reals both programs end with the same array, the cell of the seventeen arguments: the sampled weights
  mean + exp(log-deviation) · noise; the design matrix of the inputs and the state (features next to their diffusion along
  the weighted edges, the same host operations in both programs); the gate layer logistic(X · W + b), whose logistic the
  reference spells 1 / (1 + exp(−·)); its two halves, the reset gate r and the update gate u; the candidate layer
  tanh(X' · W' + b') over the design matrix of the inputs and r · h; and the blend u · h + (1 − u) · c. A change of float
  format is the identity there, a matrix product into a zero accumulator is the host's product, and a product taken block
  of rows by block of rows is the whole product's rows. No law used needs the inputs finite.

  The two kernel programs' frames are the generated ones; the kernel program's run with its result array named is the
  generated launch called once more; the reference's run is the library's run of a straight-line program, its result read in
  five stretches. The ideal pass changed nothing, so the preservation claim is trivial.
-/
import proofs.«159687_j90202903150932_1_alg».proof.Defs
import proofs.«159687_j90202903150932_1_alg».proof.Proof.Gen.Kernel
import proofs.«159687_j90202903150932_1_alg».proof.Proof.Gen.Kernel.Skeleton
import proofs.«159687_j90202903150932_1_alg».proof.Proof.Gen.Kernel.Launch
import proofs.«159687_j90202903150932_1_alg».proof.Proof.Gen.Kernel.Points
import proofs.«159687_j90202903150932_1_alg».proof.Proof.Gen.Kernel.Frame
import proofs.«159687_j90202903150932_1_alg».proof.Proof.Gen.KernelIdeal
import proofs.«159687_j90202903150932_1_alg».proof.Proof.Gen.KernelIdeal.Skeleton
import proofs.«159687_j90202903150932_1_alg».proof.Proof.Gen.KernelIdeal.Launch
import proofs.«159687_j90202903150932_1_alg».proof.Proof.Gen.KernelIdeal.Points
import proofs.«159687_j90202903150932_1_alg».proof.Proof.Gen.KernelIdeal.Frame
import proofs.«159687_j90202903150932_1_alg».proof.Proof.Gen.ReferenceIdeal
import proofs.«159687_j90202903150932_1_alg».proof.Proof.Gen.Pre_finite_inputs
import proofs.«159687_j90202903150932_1_alg».proof.Proof.KernelIdealRun
import proofs.«159687_j90202903150932_1_alg».proof.Proof.KValue
import proofs.«159687_j90202903150932_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.FoldRead.run (F := Ideal) m ρ)

/-- Both programs end with the cell of the arguments; the arguments agree. -/
theorem algebraic : Cert.algebraic_KernelIdeal_ReferenceIdeal := by
  intro m ρ m' ρ' _ hagree
  refine ⟨fun c => Cert.ReferenceIdeal.Chain.cell
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.CellValue.result m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.FoldRead.run (F := Ideal) m' ρ')
    obtain ⟨h0, h1, h2, h3, h4, h5, h6, h7, h8, h9, h10, h11, h12, h13, h14, h15, h16⟩ := hagree c
    rw [h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
